-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x10000x128 : Shape := ⟨3, ![64, 10000, 128]⟩
abbrev S64x4 : Shape := ⟨2, ![64, 4]⟩
abbrev S640x128 : Shape := ⟨2, ![640, 128]⟩
abbrev S_ : Shape := ⟨0, ![]⟩

class Facts : Prop where
  bcast_S_S64x10000x128 : S_.BroadcastsInDim S64x10000x128 (![] : Fin 0 → Fin S64x10000x128.rank)
  reducesTo_S64x10000x128_S_d0_1_2 : S64x10000x128.ReducesTo [0, 1, 2] S_
  h_S_ : 0 < S_.numel
  bcast_S_S640x128 : S_.BroadcastsInDim S640x128 (![] : Fin 0 → Fin S640x128.rank)
  reducesTo_S640x128_S_d0_1 : S640x128.ReducesTo [0, 1] S_
  bcast_S_S64x4 : S_.BroadcastsInDim S64x4 (![] : Fin 0 → Fin S64x4.rank)
  reducesTo_S64x4_S_d0_1 : S64x4.ReducesTo [0, 1] S_

variable [Facts]

def fn {F : FTy → Type} [FloatOps F] (main_arg0 : FVec F S64x10000x128 .f32) (main_arg1 : IVec S64x4 32) (main_arg2 : FVec F S640x128 .f32) : IVec S_ 1 :=
  let main_v0 : FVec F S64x10000x128 .f32 := Host.absf main_arg0
  let main_cst : FVec F S_ .f32 := constant S_ .f32 0x7F800000#32
  let main_v1 : FVec F S64x10000x128 .f32 := broadcastInDim S64x10000x128 ![] bcast_S_S64x10000x128 main_cst
  let main_v2 : IVec S64x10000x128 1 := cmpf .olt main_v0 main_v1
  let main_c : IVec S_ 1 := constantI S_ 1 1#1
  let main_v3 : IVec S_ 1 := (fun x v => Host.reduce IntOp.andi x v reducesTo_S64x10000x128_S_d0_1_2 h_S_) main_v2 main_c
  let main_v4 : FVec F S640x128 .f32 := Host.absf main_arg2
  let main_cst_0 : FVec F S_ .f32 := constant S_ .f32 0x7F800000#32
  let main_v5 : FVec F S640x128 .f32 := broadcastInDim S640x128 ![] bcast_S_S640x128 main_cst_0
  let main_v6 : IVec S640x128 1 := cmpf .olt main_v4 main_v5
  let main_c_1 : IVec S_ 1 := constantI S_ 1 1#1
  let main_v7 : IVec S_ 1 := (fun x v => Host.reduce IntOp.andi x v reducesTo_S640x128_S_d0_1 h_S_) main_v6 main_c_1
  let main_v8 : IVec S_ 1 := andi main_v3 main_v7
  let main_c_2 : IVec S_ 32 := constantI S_ 32 0#32
  let main_v9 : IVec S64x4 32 := broadcastInDim S64x4 ![] bcast_S_S64x4 main_c_2
  let main_v10 : IVec S64x4 1 := cmpi .sge main_arg1 main_v9
  let main_c_3 : IVec S_ 32 := constantI S_ 32 10000#32
  let main_v11 : IVec S64x4 32 := broadcastInDim S64x4 ![] bcast_S_S64x4 main_c_3
  let main_v12 : IVec S64x4 1 := cmpi .slt main_arg1 main_v11
  let main_v13 : IVec S64x4 1 := andi main_v10 main_v12
  let main_c_4 : IVec S_ 1 := constantI S_ 1 1#1
  let main_v14 : IVec S_ 1 := (fun x v => Host.reduce IntOp.andi x v reducesTo_S64x4_S_d0_1 h_S_) main_v13 main_c_4
  let main_v15 : IVec S_ 1 := andi main_v8 main_v14
  main_v15
-- ==== Kernel.lean ====
abbrev S64x10000x128 : Shape := ⟨3, ![64, 10000, 128]⟩
abbrev S64x4 : Shape := ⟨2, ![64, 4]⟩
abbrev S640x128 : Shape := ⟨2, ![640, 128]⟩
abbrev S_ : Shape := ⟨0, ![]⟩
abbrev S256 : Shape := ⟨1, ![256]⟩
abbrev S64x1x128 : Shape := ⟨3, ![64, 1, 128]⟩
abbrev S2x10000x128 : Shape := ⟨3, ![2, 10000, 128]⟩
abbrev S2x1x128 : Shape := ⟨3, ![2, 1, 128]⟩
abbrev S1x10000 : Shape := ⟨2, ![1, 10000]⟩
abbrev S1 : Shape := ⟨1, ![1]⟩
abbrev S3x10000 : Shape := ⟨2, ![3, 10000]⟩
abbrev S8x10000 : Shape := ⟨2, ![8, 10000]⟩
abbrev S1x8x10000 : Shape := ⟨3, ![1, 8, 10000]⟩
abbrev S2x8x10000 : Shape := ⟨3, ![2, 8, 10000]⟩
abbrev S2x8x128 : Shape := ⟨3, ![2, 8, 128]⟩
abbrev S2x128 : Shape := ⟨2, ![2, 128]⟩
abbrev S2x4x128 : Shape := ⟨3, ![2, 4, 128]⟩
abbrev S128x128 : Shape := ⟨2, ![128, 128]⟩

abbrev nBuf : Space → Nat
  | .hbm => 13
  | .vmem => 5
  | .smem => 1
  | _ => 0

abbrev bufTy : (tb : Table) → Fin (tcTables nBuf tb) → BufTy
  | .hbm, ⟨0, _⟩ => ⟨S64x10000x128, .f32⟩
  | .hbm, ⟨1, _⟩ => ⟨S64x4, .i32⟩
  | .hbm, ⟨2, _⟩ => ⟨S640x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S64x4, .i32⟩
  | .hbm, ⟨7, _⟩ => ⟨S64x4, .i32⟩
  | .hbm, ⟨8, _⟩ => ⟨S_, .i32⟩
  | .hbm, ⟨9, _⟩ => ⟨S64x4, .i32⟩
  | .hbm, ⟨10, _⟩ => ⟨S64x4, .i32⟩
  | .hbm, ⟨11, _⟩ => ⟨S640x128, .bf16⟩
  | .hbm, ⟨12, _⟩ => ⟨S64x1x128, .f32⟩
  | .local _ .vmem, ⟨0, _⟩ => ⟨S2x10000x128, .f32⟩
  | .local _ .vmem, ⟨1, _⟩ => ⟨S2x10000x128, .f32⟩
  | .local _ .vmem, ⟨2, _⟩ => ⟨S640x128, .bf16⟩
  | .local _ .vmem, ⟨3, _⟩ => ⟨S2x1x128, .f32⟩
  | .local _ .vmem, ⟨4, _⟩ => ⟨S2x1x128, .f32⟩
  | .local _ .smem, ⟨0, _⟩ => ⟨S256, .i32⟩
  | _, _ => ⟨S64x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v2 : Ref sig .tc := ⟨.hbm, 11, rfl⟩
abbrev main_v3 : Ref sig .tc := ⟨.hbm, 12, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) (c0_i32_0 : BitVec 32) : Fin 1 → Nat :=
  let arg0 : BitVec 32 := BitVec.ofNat 32 (i 0).val
  let c2_i32 : BitVec 32 := 2#32
  let v1 : BitVec 32 := Scalar.muli arg0 c2_i32
  let v2 : BitVec 32 := Scalar.addi v1 c0_i32
  let c4_i32 : BitVec 32 := 4#32
  let v3 : BitVec 32 := Scalar.muli v2 c4_i32
  let v4 : BitVec 32 := Scalar.addi v3 c0_i32_0
  let v5 : Index := Scalar.indexCast v4
  ![v5.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x4 : S_.BroadcastsInDim S64x4 (![] : Fin 0 → Fin S64x4.rank)
  shapeCasts_S64x4_S256 : S64x4.ShapeCasts S256
  bitsLt_bf16_f32 : FTy.bits .bf16 < FTy.bits .f32
  iota_S1x10000_d1_w32 : S1x10000.Iotas .tc 32 [1]
  numel1_S1 : S1.numel = 1
  natLt_1_32 : 1 < 32
  concatenates_S1x10000_S1x10000_S1x10000_S1x10000_S1x10000_S3x10000_S8x10000_d0 : Shape.Concatenates [S1x10000, S1x10000, S1x10000, S1x10000, S1x10000, S3x10000] S8x10000 0
  shapeCasts_S8x10000_S1x8x10000 : S8x10000.ShapeCasts S1x8x10000
  concatenates_S1x8x10000_S1x8x10000_S2x8x10000_d0 : Shape.Concatenates [S1x8x10000, S1x8x10000] S2x8x10000 0
  inb_S2x10000x128_S2x10000x128_0_0_0 : ∀ a, (![0, 0, 0] : Fin 3 → Nat) a + S2x10000x128.size a ≤ S2x10000x128.size a
  h_S2x10000x128 : 0 < S2x10000x128.numel
  slices_S2x8x128_o0_4_0_S2x1x128 : S2x8x128.Slices ![0, 4, 0] S2x1x128
  shapeCasts_S2x1x128_S2x128 : S2x1x128.ShapeCasts S2x128
  slices_S2x8x128_o0_0_0_S2x4x128 : S2x8x128.Slices ![0, 0, 0] S2x4x128
  inb_S640x128_S640x128_0_0 : ∀ a, (![0, 0] : Fin 2 → Nat) a + S640x128.size a ≤ S640x128.size a
  h_S640x128 : 0 < S640x128.numel
  shapeCasts_S640x128_S640x128 : S640x128.ShapeCasts S640x128
  slices_S640x128_o512_0_S128x128 : S640x128.Slices ![512, 0] S128x128
  slices_S2x4x128_o0_0_0_S2x1x128 : S2x4x128.Slices ![0, 0, 0] S2x1x128
  slices_S640x128_o0_0_S128x128 : S640x128.Slices ![0, 0] S128x128
  slices_S2x4x128_o0_1_0_S2x1x128 : S2x4x128.Slices ![0, 1, 0] S2x1x128
  slices_S640x128_o128_0_S128x128 : S640x128.Slices ![128, 0] S128x128
  slices_S2x4x128_o0_2_0_S2x1x128 : S2x4x128.Slices ![0, 2, 0] S2x1x128
  slices_S640x128_o256_0_S128x128 : S640x128.Slices ![256, 0] S128x128
  slices_S2x4x128_o0_3_0_S2x1x128 : S2x4x128.Slices ![0, 3, 0] S2x1x128
  slices_S640x128_o384_0_S128x128 : S640x128.Slices ![384, 0] S128x128
  shapeCasts_S2x128_S2x1x128 : S2x128.ShapeCasts S2x1x128
  inb_S2x1x128_S2x1x128_0_0_0 : ∀ a, (![0, 0, 0] : Fin 3 → Nat) a + S2x1x128.size a ≤ S2x1x128.size a
  h_S2x1x128 : 0 < S2x1x128.numel
  dot_S2x8x10000_S2x10000x128_S2x8x128_2_1_1_2_0_0_wf : DotDims.WF S2x8x10000 S2x10000x128 S2x8x128 [2] [1] [1] [2] [0] [0]
  dot_S2x128_S128x128_S2x128_1_0_0_1_n_n_wf : DotDims.WF S2x128 S128x128 S2x128 [1] [0] [0] [1] [] []
  hrank0 : 0 < grid0.rank
  k0_off1_inb : ∀ i : grid0.Coords, ∀ (r₁ : Fin 2) (r₂ : Fin 4), ∀ a, (k0_off1 i (BitVec.ofNat 32 r₁.val) (BitVec.ofNat 32 r₂.val)) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x10000x128.size a ≤ S64x10000x128.size a
  hwx0_0 : ∀ i : grid0.Coords, EltTy.bits .f32 = 32 ∨ (Rect.block (s := S64x10000x128) S2x10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x128.size a ≤ S640x128.size a
  hwx0_1 : ∀ i : grid0.Coords, EltTy.bits .bf16 = 32 ∨ (Rect.block (s := S640x128) S640x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x128.size a ≤ S64x1x128.size a
  hwx0_2 : ∀ i : grid0.Coords, EltTy.bits .f32 = 32 ∨ (Rect.block (s := S64x1x128) S2x1x128.size (cc0_transform_2 i) (hinb0_2 i)).WholeWords (EltTy.packing .f32)

variable [Facts₀]

def dot_S2x8x10000_S2x10000x128_S2x8x128_2_1_1_2_0_0 : DotDims S2x8x10000 S2x10000x128 S2x8x128 where
  lhsContracting := [2]
  rhsContracting := [1]
  lhsNonContracting := [1]
  rhsNonContracting := [2]
  lhsBatch := [0]
  rhsBatch := [0]
  wf := dot_S2x8x10000_S2x10000x128_S2x8x128_2_1_1_2_0_0_wf
def dot_S2x128_S128x128_S2x128_1_0_0_1_n_n : DotDims S2x128 S128x128 S2x128 where
  lhsContracting := [1]
  rhsContracting := [0]
  lhsNonContracting := [0]
  rhsNonContracting := [1]
  lhsBatch := []
  rhsBatch := []
  wf := dot_S2x128_S128x128_S2x128_1_0_0_1_n_n_wf

abbrev spec0_0 : Pipeline.WinSpec sig grid0.rank :=
  Pipeline.WinSpec.ofSpec (Memref.whole main_arg0) S2x10000x128.size reads0_0 false false 2 stage0_0 sem0_0 nbuf0_0 hstage0_0

abbrev spec0_1 : Pipeline.WinSpec sig grid0.rank :=
  Pipeline.WinSpec.ofSpec (Memref.whole main_v2) S640x128.size reads0_1 false true 1 stage0_1 sem0_1 nbuf0_1 hstage0_1

abbrev spec0_2 : Pipeline.WinSpec sig grid0.rank :=
  Pipeline.WinSpec.ofSpec (Memref.whole main_v3) S2x1x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S64x10000x128 : Shape := ⟨3, ![64, 10000, 128]⟩
abbrev S64x4 : Shape := ⟨2, ![64, 4]⟩
abbrev S640x128 : Shape := ⟨2, ![640, 128]⟩
abbrev S64x4x1 : Shape := ⟨3, ![64, 4, 1]⟩
abbrev S_ : Shape := ⟨0, ![]⟩
abbrev S1 : Shape := ⟨1, ![1]⟩
abbrev S1x1x1 : Shape := ⟨3, ![1, 1, 1]⟩
abbrev S64x4x128 : Shape := ⟨3, ![64, 4, 128]⟩
abbrev S64x128 : Shape := ⟨2, ![64, 128]⟩
abbrev S64x1x128 : Shape := ⟨3, ![64, 1, 128]⟩
abbrev S64x5x128 : Shape := ⟨3, ![64, 5, 128]⟩
abbrev S64x640 : Shape := ⟨2, ![64, 640]⟩

abbrev nBuf : Space → Nat
  | .hbm => 42
  | .vmem => 0
  | .smem => 0
  | _ => 0

abbrev bufTy : (tb : Table) → Fin (tcTables nBuf tb) → BufTy
  | .hbm, ⟨0, _⟩ => ⟨S64x10000x128, .f32⟩
  | .hbm, ⟨1, _⟩ => ⟨S64x4, .i32⟩
  | .hbm, ⟨2, _⟩ => ⟨S640x128, .f32⟩
  | .hbm, ⟨3, _⟩ => ⟨S64x4x1, .i32⟩
  | .hbm, ⟨4, _⟩ => ⟨S_, .i32⟩
  | .hbm, ⟨5, _⟩ => ⟨S64x4x1, .i32⟩
  | .hbm, ⟨6, _⟩ => ⟨S64x4x1, .i1⟩
  | .hbm, ⟨7, _⟩ => ⟨S_, .i32⟩
  | .hbm, ⟨8, _⟩ => ⟨S64x4x1, .i32⟩
  | .hbm, ⟨9, _⟩ => ⟨S64x4x1, .i32⟩
  | .hbm, ⟨10, _⟩ => ⟨S64x4x1, .i32⟩
  | .hbm, ⟨11, _⟩ => ⟨S1, .i32⟩
  | .hbm, ⟨12, _⟩ => ⟨S_, .i32⟩
  | .hbm, ⟨13, _⟩ => ⟨S64x4x1, .i32⟩
  | .hbm, ⟨14, _⟩ => ⟨S64x4x1, .i1⟩
  | .hbm, ⟨15, _⟩ => ⟨S1x1x1, .i32⟩
  | .hbm, ⟨16, _⟩ => ⟨S64x4x1, .i32⟩
  | .hbm, ⟨17, _⟩ => ⟨S64x4x1, .i1⟩
  | .hbm, ⟨18, _⟩ => ⟨S64x4x1, .i1⟩
  | .hbm, ⟨19, _⟩ => ⟨S_, .i1⟩
  | .hbm, ⟨20, _⟩ => ⟨S64x4, .i1⟩
  | .hbm, ⟨21, _⟩ => ⟨S64x4x128, .f32⟩
  | .hbm, ⟨22, _⟩ => ⟨S64x4x128, .i1⟩
  | .hbm, ⟨23, _⟩ => ⟨S_, .f32⟩
  | .hbm, ⟨24, _⟩ => ⟨S64x4x128, .f32⟩
  | .hbm, ⟨25, _⟩ => ⟨S64x4x128, .f32⟩
  | .hbm, ⟨26, _⟩ => ⟨S_, .f32⟩
  | .hbm, ⟨27, _⟩ => ⟨S64x4x128, .f32⟩
  | .hbm, ⟨28, _⟩ => ⟨S64x4x128, .f32⟩
  | .hbm, ⟨29, _⟩ => ⟨S_, .f32⟩
  | .hbm, ⟨30, _⟩ => ⟨S64x128, .f32⟩
  | .hbm, ⟨31, _⟩ => ⟨S64x1x128, .f32⟩
  | .hbm, ⟨32, _⟩ => ⟨S_, .f32⟩
  | .hbm, ⟨33, _⟩ => ⟨S64x1x128, .f32⟩
  | .hbm, ⟨34, _⟩ => ⟨S64x1x128, .f32⟩
  | .hbm, ⟨35, _⟩ => ⟨S64x5x128, .f32⟩
  | .hbm, ⟨36, _⟩ => ⟨S64x640, .f32⟩
  | .hbm, ⟨37, _⟩ => ⟨S64x128, .f32⟩
  | .hbm, ⟨38, _⟩ => ⟨S_, .f32⟩
  | .hbm, ⟨39, _⟩ => ⟨S64x128, .f32⟩
  | .hbm, ⟨40, _⟩ => ⟨S64x128, .f32⟩
  | .hbm, ⟨41, _⟩ => ⟨S64x1x128, .f32⟩
  | _, _ => ⟨S64x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩
abbrev main_v5 : Ref sig .tc := ⟨.hbm, 31, rfl⟩
abbrev main_cst_1 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call1_cst : Ref sig .tc := ⟨.hbm, 38, rfl⟩
abbrev main_call1_v0 : Ref sig .tc := ⟨.hbm, 39, rfl⟩
abbrev main_v11 : Ref sig .tc := ⟨.hbm, 40, rfl⟩
abbrev main_v12 : Ref sig .tc := ⟨.hbm, 41, rfl⟩

abbrev nD : Nat := 1
abbrev τ : Topo := Topo.v7x

variable {F : FTy → Type} [FloatOps F]

class Facts₀ : Prop where
  bcast_S64x4_S64x4x1_0_1 : S64x4.BroadcastsInDim S64x4x1 (![0, 1] : Fin 2 → Fin S64x4x1.rank)
  bcast_S_S64x4x1 : S_.BroadcastsInDim S64x4x1 (![] : Fin 0 → Fin S64x4x1.rank)
  bcast_S1_S1x1x1_2 : S1.BroadcastsInDim S1x1x1 (![2] : Fin 1 → Fin S1x1x1.rank)
  bcast_S1x1x1_S64x4x1_0_1_2 : S1x1x1.BroadcastsInDim S64x4x1 (![0, 1, 2] : Fin 3 → Fin S64x4x1.rank)
  reducesTo_S64x4x1_S64x4_d2 : S64x4x1.ReducesTo [2] S64x4
  h_S_ : 0 < S_.numel
  bcast_S64x4_S64x4x128_0_1 : S64x4.BroadcastsInDim S64x4x128 (![0, 1] : Fin 2 → Fin S64x4x128.rank)
  bcast_S_S64x4x128 : S_.BroadcastsInDim S64x4x128 (![] : Fin 0 → Fin S64x4x128.rank)
  reducesTo_S64x10000x128_S64x128_d1 : S64x10000x128.ReducesTo [1] S64x128
  bcast_S64x128_S64x1x128_0_2 : S64x128.BroadcastsInDim S64x1x128 (![0, 2] : Fin 2 → Fin S64x1x128.rank)
  bcast_S_S64x1x128 : S_.BroadcastsInDim S64x1x128 (![] : Fin 0 → Fin S64x1x128.rank)
  concatenates_S64x4x128_S64x1x128_S64x5x128_d1 : Shape.Concatenates [S64x4x128, S64x1x128] S64x5x128 1
  shapeCasts_S64x5x128_S64x640 : S64x5x128.ShapeCasts S64x640
  bcast_S_S64x128 : S_.BroadcastsInDim S64x128 (![] : Fin 0 → Fin S64x128.rank)
  gather_S64x10000x128_S64x4x1_S64x4x128_2_1_0_0_1_2_11128_wf : GatherDims.WF S64x10000x128 S64x4x1 S64x4x128 [2] [1] [0] [1] [0] 2 ![1, 1, 128]
  dot_S64x640_S640x128_S64x128_1_0_0_1_n_n_wf : DotDims.WF S64x640 S640x128 S64x128 [1] [0] [0] [1] [] []

variable [Facts₀]

def gather_S64x10000x128_S64x4x1_S64x4x128_2_1_0_0_1_2_11128 : GatherDims S64x10000x128 S64x4x1 S64x4x128 where
  offsetDims := [2]
  collapsedSliceDims := [1]
  operandBatchingDims := [0]
  startIndicesBatchingDims := [0]
  startIndexMap := [1]
  indexVectorDim := 2
  sliceSizes := ![1, 1, 128]
  wf := gather_S64x10000x128_S64x4x1_S64x4x128_2_1_0_0_1_2_11128_wf
def dot_S64x640_S640x128_S64x128_1_0_0_1_n_n : DotDims S64x640 S640x128 S64x128 where
  lhsContracting := [1]
  rhsContracting := [0]
  lhsNonContracting := [0]
  rhsNonContracting := [1]
  lhsBatch := []
  rhsBatch := []
  wf := dot_S64x640_S640x128_S64x128_1_0_0_1_n_n_wf

class Facts : Prop extends Facts₀ where

variable [Facts]
-- ==== Proof.PreDecode.lean ====
import proofs.«415065_j13434657702539_3_alg».proof.Defs
import proofs.«415065_j13434657702539_3_alg».proof.Proof.Gen.Pre_finite_inputs
import Idealize.ShloMosaic.Lib.ReduceAll

noncomputable section

namespace Cert.Hand.PreDecode

open Idealize.ShloMosaic

/-- A 32-bit word that is at least 0 and below 10000 as a signed number is below 10000 as a natural number. -/
theorem toNat_lt_of_signed (w : BitVec 32) (h0 : IntOp.cmpi .sge w (0#32) = 1#1)
    (h1 : IntOp.cmpi .slt w (10000#32) = 1#1) : w.toNat < 10000 := by
  rw [IntOp.cmpi_sge] at h0
  rw [IntOp.cmpi_slt] at h1
  have h32 := w.isLt
  have e0 : (0#32 : BitVec 32).toInt = 0 := by decide
  have e1 : (10000#32 : BitVec 32).toInt = 10000 := by decide
  rw [e0] at h0
  rw [e1] at h1
  rw [BitVec.toInt_eq_toNat_cond] at h0 h1
  split at h0 <;> omega

/-- The scalar shape has one index. -/
theorem scalar_idx_subsingleton : Subsingleton Cert.Pre_finite_inputs.S_.Idx := ⟨fun x y => funext fun a => a.elim0⟩

theorem idx_lt_of_pre (a0 : FVec Ideal Cert.Pre_finite_inputs.S64x10000x128 .f32) (a1 : IVec Cert.Pre_finite_inputs.S64x4 32)
    (a2 : FVec Ideal Cert.Pre_finite_inputs.S640x128 .f32)
    (h : Cert.Pre_finite_inputs.fn (F := Ideal) a0 a1 a2 = fun _ => 1#1) (i : Cert.Pre_finite_inputs.S64x4.Idx) :
    (a1 i).toNat < 10000 := by
  -- the claim at the one index of the scalar shape
  have e := congrFun h (fun a => a.elim0)
  unfold Cert.Pre_finite_inputs.fn at e
  -- the outer conjunction: its second operand is the all over the index words
  obtain ⟨-, e14⟩ := IntOp.andi_eq_one.1 e
  -- that all, read at index i
  haveI := scalar_idx_subsingleton
  have e13 := Host.reduce_andi_all _ _ _ _ _ e14 i
  -- the element is the conjunction of the two comparisons against the broadcast constants 0 and 10000
  obtain ⟨hge, hlt⟩ := IntOp.andi_eq_one.1 e13
  exact toNat_lt_of_signed (a1 i) hge hlt

end Cert.Hand.PreDecode

end
-- ==== Proof.Spec.lean ====
/-
  WHAT THE KERNEL AND THE REFERENCE BOTH COMPUTE, as one function of the three argument arrays.

  For a batch b of the [64, 10000, 128] array H, four index words idx[b, 0 … 3] and the [640, 128] matrix W, the
  result row (b, 0, ·) is

      relu ( [ relu H[b, idx[b,0], ·] , … , relu H[b, idx[b,3], ·] , mean over n of H[b, n, ·] ]  ·  W )

  — the four selected rows, rectified, and the mean row are laid side by side as one row of 5 · 128 = 640 features and
  multiplied into W. Here the product is written block by block: feature block f (128 wide) meets rows
  128 f … 128 f + 127 of W, and the five partial products are added in the order mean, 0, 1, 2, 3. An index word is
  read as a natural number and clamped into 0 … 9999, so the function is total; the two programs are compared where
  every word is below 10000.
-/
import Idealize.ShloMosaic.PureOps.Ideal
import Idealize.ShloMosaic.Lib.ValueIdx

noncomputable section

namespace Cert.Hand.Spec

open Idealize.ShloMosaic Idealize.ShloMosaic.ValueIdx

/-- The shapes of H, of the index words, of W and of the result. -/
abbrev TH : Shape := ⟨3, ![64, 10000, 128]⟩
abbrev TI : Shape := ⟨2, ![64, 4]⟩
abbrev TW : Shape := ⟨2, ![640, 128]⟩
abbrev TO : Shape := ⟨3, ![64, 1, 128]⟩

/-- The row of H an index word selects: the word as a natural number, clamped into 0 … 9999. -/
def rowOf (w : BitVec 32) : Fin 10000 := ⟨min w.toNat 9999, by omega⟩

theorem rowOf_val_of_lt {w : BitVec 32} (h : w.toNat < 10000) : (rowOf w).val = w.toNat := by
  show min _ 9999 = _; omega

/-- Selected row f of batch b, rectified: relu H[b, idx[b, f], k]. -/
def gat (H : TH.Idx → EReal) (idx : TI.Idx → BitVec 32) (b : Fin 64) (f : Fin 4) (k : Fin 128) : EReal :=
  max (H (ix3 b (rowOf (idx (ix2 b f))) k)) 0

/-- The mean row of batch b: the sum over the 10000 rows, times 1/10000. -/
def avg (H : TH.Idx → EReal) (b : Fin 64) (k : Fin 128) : EReal :=
  (∑ n : Fin 10000, H (ix3 b n k)) * ((1 / 10000 : ℝ) : EReal)

/-- One 128-wide block of the projection: the features e against rows 128 f … 128 f + 127 of W, at column d. -/
def proj (e : Fin 128 → EReal) (W : TW.Idx → EReal) (f : Fin 5) (d : Fin 128) : EReal :=
  ∑ k : Fin 128, e k * W (ix2 (⟨f.val * 128 + k.val, by have := f.isLt; have := k.isLt; omega⟩ : Fin 640) d)

/-- THE RESULT: the five block products added (mean block first, then the selected rows in order), rectified. -/
def G (H : TH.Idx → EReal) (idx : TI.Idx → BitVec 32) (W : TW.Idx → EReal) : TO.Idx → EReal := fun j =>
  max (proj (avg H (j 0)) W 4 (j 2) + proj (gat H idx (j 0) 0) W 0 (j 2) + proj (gat H idx (j 0) 1) W 1 (j 2)
    + proj (gat H idx (j 0) 2) W 2 (j 2) + proj (gat H idx (j 0) 3) W 3 (j 2)) 0

end Cert.Hand.Spec

end
-- ==== Proof.RefRows.lean ====
import proofs.«415065_j13434657702539_3_alg».proof.Proof.Gen.ReferenceIdeal.Read
import proofs.«415065_j13434657702539_3_alg».proof.Proof.Spec

noncomputable section

namespace Cert.Hand.RefRows

open Cert.ReferenceIdeal Cert.ReferenceIdeal.Read Cert.Hand.Spec Idealize.ShloMosaic Idealize.ShloMosaic.ValueIdx

/-! ## An index word below 10000, read as a signed number

Such a word is below 2^31, so its signed value is its unsigned one: it is not negative, and it lies in 0 … 9999. -/

/-- The signed value of a word below 10000 is its unsigned value. -/
theorem toInt_of_lt {w : BitVec 32} (h : w.toNat < 10000) : w.toInt = (w.toNat : Int) := by
  rw [BitVec.toInt_eq_toNat_cond, if_pos (by omega)]

/-- It is not signed-below zero, -/
theorem not_slt_zero {w : BitVec 32} (h : w.toNat < 10000) : ¬ IntOp.cmpi .slt w 0#32 = 1#1 := by
  rw [IntOp.cmpi_slt, toInt_of_lt h, show (0#32 : BitVec 32).toInt = 0 from by decide]
  omega

/-- it is signed-at-least zero, -/
theorem sge_zero {w : BitVec 32} (h : w.toNat < 10000) : IntOp.cmpi .sge w 0#32 = 1#1 := by
  rw [IntOp.cmpi_sge, toInt_of_lt h, show (0#32 : BitVec 32).toInt = 0 from by decide]
  omega

/-- and signed-at-most 9999. -/
theorem sle_top {w : BitVec 32} (h : w.toNat < 10000) : IntOp.cmpi .sle w 9999#32 = 1#1 := by
  rw [IntOp.cmpi_sle, toInt_of_lt h, show (9999#32 : BitVec 32).toInt = 9999 from by decide]
  omega

/-- Its signed value, as a natural number, clamped into 0 … 9999 is the row the specification reads. -/
theorem clamp_eq_rowOf {w : BitVec 32} (h : w.toNat < 10000) : min w.toInt.toNat 9999 = (rowOf w).val := by
  rw [toInt_of_lt h, Int.toNat_natCast]; rfl

/-! ## A fold of the one-bit "and" over bits that are all 1, from 1, is 1 -/

/-- The left fold of `and` from the bit 1 over a list whose every bit is 1 is 1. -/
theorem foldl_andi_one {ι : Type} (x : ι → BitVec 1) (l : List ι) (h : ∀ i ∈ l, x i = 1#1) :
    l.foldl (fun r i => IntOp.andi r (x i)) 1#1 = 1#1 := by
  induction l with
  | nil => rfl
  | cons a l ih =>
    rw [List.foldl_cons, h a (List.mem_cons_self ..)]
    exact ih fun i hi => h i (List.mem_cons_of_mem _ hi)

/-! ## The gather at (b, f, k)

Dimension numbers: result axis 2 is the offset axis and reads operand axis 2; operand axis 1 is collapsed and is the
one the start index names; operand axis 0 is a batching axis paired with start-indices axis 0; the index vector lies on
start-indices axis 2 (extent 1). So result element (b, f, k) is the operand at
(b, clamp(idx[b, f, 0] signed, 0 … 9999), k). -/

/-- The gather's dimension record. -/
abbrev rowDims := gather_S64x10000x128_S64x4x1_S64x4x128_2_1_0_0_1_2_11128

theorem gather_rows {α : Type} (x : S64x10000x128.Idx → α) (idx : IVec S64x4x1 32) (b : Fin 64) (f : Fin 4)
    (k : Fin 128) :
    Host.gather rowDims x idx (ix3 b f k)
      = x (ix3 b (⟨min (idx (ix3 b f 0)).toInt.toNat 9999, by omega⟩ : Fin 10000) k) := by
  unfold Host.gather; congr 1; funext a; apply Fin.ext
  fin_cases a <;>
    simp [GatherDims.operandIdx, GatherDims.start, GatherDims.offCoord, GatherDims.batchCoord, rowDims,
      gather_S64x10000x128_S64x4x1_S64x4x128_2_1_0_0_1_2_11128, GatherDims.sKept, Shape.kept]
  -- axis 0: the batching coordinate is the result's coordinate 0
  · rfl
  -- axis 1: the start index is read at (b, f, 0)
  · have e : rowDims.siIdx (ix3 b f k) ⟨0, by decide⟩ = ix3 b f 0 := by
      funext c; apply Fin.ext
      match c with
      | ⟨0, _⟩ => rfl
      | ⟨1, _⟩ => rfl
      | ⟨2, _⟩ => rfl
    exact congrArg (fun i => min (idx i).toInt.toNat 9999) e
  -- axis 2: the offset coordinate is the result's coordinate 2
  · rfl

/-! ## The reference's start indices and mask under the precondition -/

section
variable (x1 : IVec S64x4 32) (hidx : ∀ i : S64x4.Idx, (x1 i).toNat < 10000)
include hidx

/-- The wrap of a negative index is not taken: the start index at (b, f, 0) is the word idx[b, f]. -/
theorem start_eq (i : S64x4x1.Idx) :
    val_main_call0_v4 (F := Ideal) x1 i = x1 (idx_main_v0 i) := by
  rw [val_main_call0_v4_apply, val_main_call0_v1_apply, val_main_v0_apply, val_main_call0_v0_apply,
    val_main_call0_c_apply]
  exact if_neg (not_slt_zero (hidx _))

/-- Every bit of the in-range mask (0 ≤ start ≤ 9999, signed) is 1. -/
theorem mask_one (i : S64x4x1.Idx) : val_main_call0_v10 (F := Ideal) x1 i = 1#1 := by
  rw [val_main_call0_v10_apply, val_main_call0_v6_apply, val_main_call0_v9_apply, start_eq x1 hidx,
    val_main_call0_v5_apply, val_main_call0_c_2_apply, val_main_call0_v8_apply, val_main_call0_v7_apply,
    val_main_call0_c_1_apply, sge_zero (hidx _), sle_top (hidx _)]
  rfl

/-- So its "and" over the trailing unit axis, from the bit 1, is 1 at every (b, f). -/
theorem mask_all (j : S64x4.Idx) : val_main_call0_v11 (F := Ideal) x1 j = 1#1 := by
  unfold val_main_call0_v11
  rw [Host.reduce_eq_foldl, val_main_call0_c_3_apply]
  exact foldl_andi_one _ _ fun i _ => mask_one x1 hidx i

end

/-! ## The claim -/

theorem rows_eq (x0 : FVec Ideal S64x10000x128 .f32) (x1 : IVec S64x4 32)
    (hidx : ∀ i : S64x4.Idx, (x1 i).toNat < 10000) (b : Fin 64) (f : Fin 4) (k : Fin 128) :
    val_main_v3 (F := Ideal) x0 x1 (ix3 b f k) = gat x0 x1 b f k := by
  rw [val_main_v3_apply, val_main_v1_apply, val_main_call0_v13_apply, mask_all x1 hidx, select_one,
    val_main_v2_apply, val_main_cst_apply]
  unfold val_main_call0_v12
  rw [gather_rows]
  have hi : idx_main_v0 (ix3 b f (0 : Fin 1)) = ix2 b f := by
    funext c
    match c with
    | ⟨0, _⟩ => rfl
    | ⟨1, _⟩ => rfl
  show max (x0 _) (Ideal.ofBits .f32 0x00000000#32) = max (x0 _) 0
  rw [Ideal.ofBits_zero_f32]
  congr 2
  refine congrArg (fun r : Fin 10000 => ix3 b r k) (Fin.ext ?_)
  show min (val_main_call0_v4 (F := Ideal) x1 (ix3 b f 0)).toInt.toNat 9999 = _
  rw [start_eq x1 hidx, hi, clamp_eq_rowOf (hidx _)]

end Cert.Hand.RefRows

end
-- ==== Proof.Consts.lean ====
import Idealize.ShloMosaic.PureOps.Ideal

noncomputable section

namespace Cert.Hand.Consts

open Idealize.ShloMosaic

/-- The f32 word 0x461C4000 (sign 0, exponent 140, fraction 0x1C4000) denotes the real 10000:
    2 ^ 13 * (1 + 0x1C4000 / 2 ^ 23) = 8192 * 1.220703125 = 10000. -/
theorem ofBits_10000 : Ideal.ofBits .f32 0x461C4000#32 = ((10000 : ℝ) : EReal) := by
  simp [Ideal.ofBits, Ideal.ieee, -EReal.coe_mul]; norm_num

/-- The f32 word 0x3F800000 (sign 0, exponent 127, fraction 0) denotes 1: 2 ^ 0 * (1 + 0) = 1. -/
theorem ofBits_one : Ideal.ofBits .f32 0x3F800000#32 = 1 := by
  simp [Ideal.ofBits, Ideal.ieee, -EReal.coe_mul]; norm_num

end Cert.Hand.Consts

end
-- ==== Proof.RefMean.lean ====
import proofs.«415065_j13434657702539_3_alg».proof.Proof.Gen.ReferenceIdeal.Read
import proofs.«415065_j13434657702539_3_alg».proof.Proof.Spec
import proofs.«415065_j13434657702539_3_alg».proof.Proof.Consts

noncomputable section

namespace Cert.Hand.RefMean

open Cert.ReferenceIdeal Cert.ReferenceIdeal.Read Cert.Hand.Spec Idealize.ShloMosaic Idealize.ShloMosaic.ValueIdx

theorem mean_eq (x0 : FVec Ideal S64x10000x128 .f32) (b : Fin 64) (k : Fin 128) :
    val_main_v7 (F := Ideal) x0 (ix3 b 0 k) = avg x0 b k := by
  -- the quotient of the broadcast row sum by the broadcast constant
  rw [val_main_v7_apply, val_main_v5_apply, val_main_v6_apply, val_main_cst_1_apply, val_main_v4_apply,
    val_main_cst_0_apply]
  -- the sum starts at 0; the divisor is the real 10000, and the quotient by it is the product with 1/10000
  rw [Ideal.hostDivf_def, Ideal.ofBits_def, Ideal.ofBits_def, Ideal.ofBits_zero_f32, zero_add, Cert.Hand.Consts.ofBits_10000,
    Ideal.div_coe (by norm_num : (10000 : ℝ) ≠ 0)]
  -- the summand at n is H[b, n, k]
  unfold avg
  refine congrArg (· * _) (Finset.sum_congr rfl fun n _ => congrArg x0 ?_)
  funext a
  match a with
  | ⟨0, _⟩ => rfl
  | ⟨1, _⟩ => rfl
  | ⟨2, _⟩ => rfl

end Cert.Hand.RefMean

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.RefValue.lean ====
import proofs.«415065_j13434657702539_3_alg».proof.Proof.Gen.ReferenceIdeal.Read
import proofs.«415065_j13434657702539_3_alg».proof.Proof.Spec
import proofs.«415065_j13434657702539_3_alg».proof.Proof.RefRows
import proofs.«415065_j13434657702539_3_alg».proof.Proof.RefMean
import proofs.«415065_j13434657702539_3_alg».proof.Proof.LibBlockSum

noncomputable section

namespace Cert.Hand.RefValue

open Cert.ReferenceIdeal Cert.ReferenceIdeal.Read Cert.Hand.Spec Idealize.ShloMosaic Idealize.ShloMosaic.ValueIdx

/-- The joined array read in one of the four selected-row blocks: feature block f < 4 of batch b is selected row f, rectified. -/
theorem emb_row (x0 : FVec Ideal S64x10000x128 .f32) (x1 : IVec S64x4 32)
    (hidx : ∀ i : S64x4.Idx, (x1 i).toNat < 10000) (b : Fin 64) (f : Fin 4) (k : Fin 128) :
    val_main_v8 (F := Ideal) x0 x1 (ix3 b (⟨f.val, by omega⟩ : Fin 5) k) = gat x0 x1 b f k := by
  unfold val_main_v8
  refine (concatenate_pair_apply_left (t := S64x5x128) (s₁ := S64x4x128) (s₂ := S64x1x128) (1 : Fin 3) _ _
    _ _ rfl (ix3 b f k) (by
      intro a
      match a with
      | ⟨0, _⟩ => rfl
      | ⟨1, _⟩ => rfl
      | ⟨2, _⟩ => rfl)).trans ?_
  exact Cert.Hand.RefRows.rows_eq x0 x1 hidx b f k

/-- The joined array read in the fifth block: the mean row. -/
theorem emb_mean (x0 : FVec Ideal S64x10000x128 .f32) (x1 : IVec S64x4 32) (b : Fin 64) (k : Fin 128) :
    val_main_v8 (F := Ideal) x0 x1 (ix3 b (4 : Fin 5) k) = avg x0 b k := by
  unfold val_main_v8
  refine (concatenate_pair_apply_right (t := S64x5x128) (s₁ := S64x4x128) (s₂ := S64x1x128) (1 : Fin 3) _ _
    _ _ rfl rfl (ix3 b (0 : Fin 1) k) (by
      intro a ha
      match a with
      | ⟨0, _⟩ => rfl
      | ⟨1, _⟩ => exact absurd rfl ha
      | ⟨2, _⟩ => rfl) (by rfl)).trans ?_
  exact Cert.Hand.RefMean.mean_eq x0 b k

/-- The reshaped [64, 640] array at feature f · 128 + k of batch b is the joined array at (b, f, k). -/
theorem v9_block (x0 : FVec Ideal S64x10000x128 .f32) (x1 : IVec S64x4 32) (b : Fin 64) (f : Fin 5) (k : Fin 128)
    (h : f.val * 128 + k.val < 640) :
    val_main_v9 (F := Ideal) x0 x1 (ix2 b (⟨f.val * 128 + k.val, h⟩ : Fin 640)) = val_main_v8 (F := Ideal) x0 x1 (ix3 b f k) := by
  rw [val_main_v9_apply]
  refine congrArg _ (funext fun a => Fin.ext ?_)
  have hb := b.isLt; have hf := f.isLt; have hk := k.isLt
  match a with
  | ⟨0, _⟩ => show (b.val * 640 + (f.val * 128 + k.val)) / 640 = b.val; omega
  | ⟨1, _⟩ => show (b.val * 640 + (f.val * 128 + k.val)) / 128 % 5 = f.val; omega
  | ⟨2, _⟩ => show (b.val * 640 + (f.val * 128 + k.val)) % 128 = k.val; omega

/-- The contraction over the 640 features, cut into five blocks of 128: block f pairs the joined array's block f
    with rows 128 f … 128 f + 127 of W. -/
theorem dot_blocks (x0 : FVec Ideal S64x10000x128 .f32) (x1 : IVec S64x4 32) (x2 : FVec Ideal S640x128 .f32)
    (b : Fin 64) (d : Fin 128) :
    ∑ q : Fin 640, val_main_v9 (F := Ideal) x0 x1 (ix2 b q) * x2 (ix2 q d)
      = ∑ f : Fin 5, proj (fun k => val_main_v8 (F := Ideal) x0 x1 (ix3 b f k)) x2 f d := by
  refine (Cert.Hand.BlockSum.sum_blocks_cast 5 128 640 rfl
    (fun q : Fin 640 => val_main_v9 (F := Ideal) x0 x1 (ix2 b q) * x2 (ix2 q d))).symm.trans ?_
  refine Finset.sum_congr rfl fun f _ => Finset.sum_congr rfl fun k _ => ?_
  show val_main_v9 (F := Ideal) x0 x1 (ix2 b _) * _ = val_main_v8 (F := Ideal) x0 x1 (ix3 b f k) * _
  rw [v9_block]

/-- The reference's result at batch b, column d. -/
theorem ref_at (x0 : FVec Ideal S64x10000x128 .f32) (x1 : IVec S64x4 32) (x2 : FVec Ideal S640x128 .f32)
    (hidx : ∀ i : S64x4.Idx, (x1 i).toNat < 10000) (b : Fin 64) (d : Fin 128) :
    val_main_v12 (F := Ideal) x0 x1 x2 (ix3 b (0 : Fin 1) d) = G x0 x1 x2 (ix3 b (0 : Fin 1) d) := by
  rw [val_main_v12_apply, val_main_v11_apply, val_main_v10_apply, val_main_call1_v0_apply, val_main_call1_cst_apply]
  have hl : ∀ q : Fin 640, lidx_main_v10 (idx_main_v12 (ix3 b (0 : Fin 1) d)) q = ix2 b q := fun q => funext fun a => by
    match a with
    | ⟨0, _⟩ => rfl
    | ⟨1, _⟩ => rfl
  have hr : ∀ q : Fin 640, ridx_main_v10 (idx_main_v12 (ix3 b (0 : Fin 1) d)) q = ix2 q d := fun q => funext fun a => by
    match a with
    | ⟨0, _⟩ => rfl
    | ⟨1, _⟩ => rfl
  have hs : ∑ q : Fin 640, val_main_v9 (F := Ideal) x0 x1 (lidx_main_v10 (idx_main_v12 (ix3 b (0 : Fin 1) d)) q)
        * x2 (ridx_main_v10 (idx_main_v12 (ix3 b (0 : Fin 1) d)) q)
      = ∑ q : Fin 640, val_main_v9 (F := Ideal) x0 x1 (ix2 b q) * x2 (ix2 q d) :=
    Finset.sum_congr rfl fun q _ => by rw [hl q, hr q]
  rw [hs]
  show max (∑ q : Fin 640, val_main_v9 (F := Ideal) x0 x1 (ix2 b q) * x2 (ix2 q d)) (Ideal.ofBits .f32 0x00000000#32) = _
  rw [Ideal.ofBits_zero_f32, dot_blocks, Fin.sum_univ_five]
  have e0 : (fun k => val_main_v8 (F := Ideal) x0 x1 (ix3 b (0 : Fin 5) k)) = gat x0 x1 b 0 :=
    funext fun k => emb_row x0 x1 hidx b 0 k
  have e1 : (fun k => val_main_v8 (F := Ideal) x0 x1 (ix3 b (1 : Fin 5) k)) = gat x0 x1 b 1 :=
    funext fun k => emb_row x0 x1 hidx b 1 k
  have e2 : (fun k => val_main_v8 (F := Ideal) x0 x1 (ix3 b (2 : Fin 5) k)) = gat x0 x1 b 2 :=
    funext fun k => emb_row x0 x1 hidx b 2 k
  have e3 : (fun k => val_main_v8 (F := Ideal) x0 x1 (ix3 b (3 : Fin 5) k)) = gat x0 x1 b 3 :=
    funext fun k => emb_row x0 x1 hidx b 3 k
  have e4 : (fun k => val_main_v8 (F := Ideal) x0 x1 (ix3 b (4 : Fin 5) k)) = avg x0 b :=
    funext fun k => emb_mean x0 x1 b k
  rw [e0, e1, e2, e3, e4]
  show max _ 0 = max (proj (avg x0 b) x2 4 d + proj (gat x0 x1 b 0) x2 0 d + proj (gat x0 x1 b 1) x2 1 d
    + proj (gat x0 x1 b 2) x2 2 d + proj (gat x0 x1 b 3) x2 3 d) 0
  congr 1
  ac_rfl

theorem ref_eq (x0 : FVec Ideal S64x10000x128 .f32) (x1 : IVec S64x4 32) (x2 : FVec Ideal S640x128 .f32)
    (hidx : ∀ i : S64x4.Idx, (x1 i).toNat < 10000) :
    val_main_v12 (F := Ideal) x0 x1 x2 = G x0 x1 x2 := by
  funext j
  -- the middle coordinate of a [64, 1, 128] index is 0
  obtain ⟨b, d, rfl⟩ : ∃ (b : Fin 64) (d : Fin 128), j = ix3 b (0 : Fin 1) d := ⟨j 0, j 2, funext fun a => by
    match a with
    | ⟨0, _⟩ => rfl
    | ⟨1, _⟩ => exact Subsingleton.elim (α := Fin 1) _ _
    | ⟨2, _⟩ => rfl⟩
  exact ref_at x0 x1 x2 hidx b d

end Cert.Hand.RefValue

end
-- ==== Proof.KOut.lean ====
/-
  THE KERNEL'S BODY AT ONE GRID POINT, as a function of what it reads.

  At grid point i the body reads eight index words — words 0 … 3 of batches 2 i and 2 i + 1, entries
  8 i + 4 r + f of the flat [256] table —, the point's [2, 10000, 128] block of H and the whole [640, 128] matrix, and
  stores ONE [2, 1, 128] block. The store's payload is the composition of the body's pure stages: the selection
  matrix of each batch (four one-hot rows, a row of ones, three zero rows), its product with the batch's slab of H,
  the mean row scaled by the named reciprocal, the four selected rows rectified, the five 128-wide products
  with W's row blocks added up, and the final rectification.
-/
import proofs.«415065_j13434657702539_3_alg».proof.Proof.Gen.KernelIdeal.Frame
import Idealize.ShloMosaic.Lib.Pipeline.Value

set_option maxRecDepth 16384

noncomputable section

namespace Cert.Hand.KOut

open Cert.KernelIdeal Cert.KernelIdeal.Gen
open Idealize.ShloMosaic Idealize.ShloMosaic.TcCoe Idealize.SL.Sem Idealize.ShloMosaic.Tactic
open Cert.KernelIdeal.Facts₀ Cert.KernelIdeal.Facts

variable {F : FTy → Type} [FloatOps F] [Named F]

/-- The payload of the body's one store, from the eight index words (w r f: word f of the point's batch r), the block
    of H and the matrix: the body's pure stages composed. -/
def body (w : Fin 2 → Fin 4 → Elt F .i32) (x0 : Vec F S2x10000x128 .f32) (x1 : Vec F S640x128 .bf16) : Vec F S2x1x128 .f32 :=
  k0_pay1
    (k0_pay4 (iota .tc S1x10000 32 [1] Facts₀.iota_S1x10000_d1_w32) (k0_pay2 (w 0 0) (w 0 1) (w 0 2) (w 0 3))
      (w 1 0) (w 1 1) (w 1 2) (w 1 3) x0)
    (k0_pay5 (iota .tc S1x10000 32 [1] Facts₀.iota_S1x10000_d1_w32) (k0_pay2 (w 0 0) (w 0 1) (w 0 2) (w 0 3))
      (w 1 0) (w 1 1) (w 1 2) (w 1 3) x0)
    x1

/-- Word f of batch r at grid point i, as the body loads it from the table's contents: the entry at the offset the
    body computes, (2 i + r) · 4 + f. -/
def wordAt (c : Dev nD) (i : grid0.Coords) (xt0 : TbBuf0 (F := F) c tbM0_0) (r : Fin 2) (f : Fin 4) : Elt F .i32 :=
  View.readAt (Elt F) tbM0_0.view
    (Rect.unit (s := S256) (k0_off1 i (BitVec.ofNat 32 r.val) (BitVec.ofNat 32 f.val)) S1.size (Facts₀.k0_off1_inb i r f)).toLoadRect
    xt0 (Shape.Idx.first (Facts₀.numel1_S1.symm ▸ Nat.one_pos))

theorem zero3 : (![0, 0, 0] : Fin 3 → Nat) = fun _ => 0 := by
  funext a; match a with | ⟨0, _⟩ => rfl | ⟨1, _⟩ => rfl | ⟨2, _⟩ => rfl
theorem zero2 : (![0, 0] : Fin 2 → Nat) = fun _ => 0 := by
  funext a; match a with | ⟨0, _⟩ => rfl | ⟨1, _⟩ => rfl

/-- WHAT THE RUN LEAVES IN THE OUTPUT BLOCK: the one store covers the block, so the block is the store's payload,
    the body's stages applied to the words the table holds and the two input blocks. -/
theorem out_eq (c : Dev nD) (i : grid0.Coords) (arg2 : Memref sig .tc .vmem S2x10000x128 .f32) (harg2 : arg2.IsWhole)
    (arg3 : Memref sig .tc .vmem S640x128 .bf16) (harg3 : arg3.IsWhole) (arg4 : Memref sig .tc .vmem S2x1x128 .f32) (harg4 : arg4.IsWhole)
    (x0 : Vec F S2x10000x128 .f32) (x1 : Vec F S640x128 .bf16) (xt0 : TbBuf0 (F := F) c tbM0_0) :
    out0_A_2 c i arg2 harg2 arg3 harg3 arg4 harg4 x0 x1 xt0 = body (wordAt c i xt0) x0 x1 := by
  unfold out0_A_2
  rw [View.read_writes_eq_canon _ _ _ (cover0_A_2 c i arg2 harg2 arg3 harg3 arg4 harg4 x0 x1 xt0)]
  unfold kernelRun0_A
  dsimp only
  sl_unfold_words
  rw [View.canon_unit_zero zero3]
  simp only [View.readAt_eq_ld, harg2.read_unread, harg3.read_unread, View.ld_unit_zero (S := S2x10000x128) zero3,
    View.ld_unit_zero (S := S640x128) zero2]
  rfl

end Cert.Hand.KOut

end
-- ==== Proof.LibOneHotRow.lean ====
/-
  A one-hot row against a column of extended reals.

  A kernel that wants row `w` of a small table without an indexed load builds the row of the identity matrix that
  has its one in column `w` — it compares the word `w` with the column numbers `0, 1, …, n - 1`, widens each answer
  bit to a word and converts the word to a float — and multiplies that row into the table. Over the extended reals
  the entries of the row are exactly `1` (in column `w`) and `0` (elsewhere), `0 * x = 0` and `1 * x = x` for EVERY
  extended real `x` (infinite ones included), so the sum over the columns is the one entry `x w`: no finiteness is
  needed. Stated for any number of columns `n ≤ 2 ^ 32` and any word below `n`.
-/
import Idealize.ShloMosaic.PureOps.Ideal
import Idealize.ShloMosaic.Lib.Affine

noncomputable section

namespace Idealize.ShloMosaic.OneHotRow

open Idealize.ShloMosaic

/-- An answer bit widened to a word, read signed, is the bit as a number. -/
theorem toInt_widen_bit (b : BitVec 1) : (b.setWidth 32).toInt = (b.toNat : ℤ) := by
  rcases BitVec.eq_zero_or_eq_one b with h | h <;> subst h <;> decide

/-- One entry of the row: the comparison of the word with column number `j`, widened and converted, is `1` when the
    word is `j` and `0` otherwise. -/
theorem entry (w : BitVec 32) (j : Nat) (hj : j < 2 ^ 32) :
    (FloatOps.sitofp (F := Ideal) .f32 ((IntOp.cmpi .eq w (BitVec.ofNat 32 j)).setWidth 32) : EReal)
      = if w.toNat = j then 1 else 0 := by
  show ((((IntOp.cmpi .eq w (BitVec.ofNat 32 j)).setWidth 32).toInt : ℝ) : EReal) = _
  rw [toInt_widen_bit]
  by_cases h : w.toNat = j
  · have e : w = BitVec.ofNat 32 j := BitVec.eq_of_toNat_eq (by rw [BitVec.toNat_ofNat, h, Nat.mod_eq_of_lt hj])
    rw [if_pos h, IntOp.cmpi_eq.mpr e]
    norm_num
  · have hne : ¬ w = BitVec.ofNat 32 j := fun e => h (by rw [e, BitVec.toNat_ofNat, Nat.mod_eq_of_lt hj])
    have e0 : IntOp.cmpi .eq w (BitVec.ofNat 32 j) = 0#1 := by
      rcases BitVec.eq_zero_or_eq_one (IntOp.cmpi .eq w (BitVec.ofNat 32 j)) with h0 | h1
      · exact h0
      · exact absurd (IntOp.cmpi_eq.mp h1) hne
    rw [if_neg h, e0]
    norm_num

/-- THE ROW TIMES A COLUMN: the one-hot row of the word `w` summed against `x` is `x w`. -/
theorem sum_mul {n : Nat} (hn : n ≤ 2 ^ 32) (w : BitVec 32) (hw : w.toNat < n) (x : Fin n → EReal) :
    ∑ j : Fin n, (FloatOps.sitofp (F := Ideal) .f32 ((IntOp.cmpi .eq w (BitVec.ofNat 32 j.val)).setWidth 32) : EReal) * x j
      = x ⟨w.toNat, hw⟩ := by
  rw [Finset.sum_eq_single (⟨w.toNat, hw⟩ : Fin n)]
  · rw [entry w _ (by omega), if_pos rfl, one_mul]
  · intro j _ hj
    rw [entry w _ (by have := j.isLt; omega), if_neg (fun e => hj (Fin.ext e.symm)), zero_mul]
  · intro h
    exact absurd (Finset.mem_univ _) h

end Idealize.ShloMosaic.OneHotRow

end
-- ==== Proof.KSel.lean ====
import proofs.«415065_j13434657702539_3_alg».proof.Proof.Gen.KernelIdeal.Skeleton
import proofs.«415065_j13434657702539_3_alg».proof.Proof.LibOneHotRow
import proofs.«415065_j13434657702539_3_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Hand.KSel

open Cert.KernelIdeal Cert.KernelIdeal.Gen
open Idealize.ShloMosaic Idealize.ShloMosaic.ValueIdx

/-- Entry (r, n) of the 8 × 10000 selection block of four index words: rows 0 … 3 are the one-hot rows of the words
    (1 in the column the word names, 0 elsewhere), row 4 is all ones, rows 5 … 7 are zero. -/
def sel (w : Fin 4 → BitVec 32) (r : Fin 8) (n : Fin 10000) : EReal :=
  if h : r.val < 4 then
    (FloatOps.sitofp (F := Ideal) .f32 ((IntOp.cmpi .eq (w ⟨r.val, h⟩) (BitVec.ofNat 32 n.val)).setWidth 32) : EReal)
  else if r.val = 4 then 1 else 0

/-- Equality of two words, as a bit, does not depend on the order of the words. -/
theorem cmpi_eq_comm {v : Nat} (a b : BitVec v) : IntOp.cmpi .eq a b = IntOp.cmpi .eq b a := by
  by_cases h : a = b
  · subst h; rfl
  · have h1 : ¬ IntOp.cmpi .eq a b = 1#1 := fun e => h (IntOp.cmpi_eq.mp e)
    have h2 : ¬ IntOp.cmpi .eq b a = 1#1 := fun e => h (IntOp.cmpi_eq.mp e).symm
    rw [eq_zero_of_ne_one h1, eq_zero_of_ne_one h2]

/-- A one-hot row of the block at column n: the column number compared with the word, widened and converted. -/
theorem hot_apply (w : BitVec 32) (n : Fin 10000) :
    (sitofp (F := Ideal) .f32 (extui 32 (cmpi .eq (iota .tc S1x10000 32 [1] iota_S1x10000_d1_w32) (broadcast S1x10000 w))
        natLt_1_32) : FVec Ideal S1x10000 .f32) (ix2 0 n)
      = FloatOps.sitofp (F := Ideal) .f32 ((IntOp.cmpi .eq w (BitVec.ofNat 32 n.val)).setWidth 32) := by
  rw [sitofp_apply, extui_apply]
  show FloatOps.sitofp (F := Ideal) .f32 ((IntOp.cmpi .eq (iota .tc S1x10000 32 [1] iota_S1x10000_d1_w32 (ix2 0 n))
    (broadcast S1x10000 w (ix2 0 n))).setWidth 32) = _
  rw [iota_single_apply, broadcast_apply, cmpi_eq_comm]

/-! ## Six pieces laid along the rows: [1,10000] five times, then [3,10000]

Row r of the [8,10000] result is row 0 of piece r for r ≤ 4, and row r - 5 of the last piece for r = 5, 6, 7. -/

/-- The concatenation of the six pieces read at (r, n). -/
theorem cat6_apply {α : Type} (p0 p1 p2 p3 p4 : S1x10000.Idx → α) (p5 : S3x10000.Idx → α)
    (h : Shape.Concatenates (([⟨S1x10000, p0⟩, ⟨S1x10000, p1⟩, ⟨S1x10000, p2⟩, ⟨S1x10000, p3⟩, ⟨S1x10000, p4⟩,
      ⟨S3x10000, p5⟩] : List ((s : Shape) × (s.Idx → α))).map (·.1)) S8x10000 0) (r : Fin 8) (n : Fin 10000) :
    concatenate S8x10000 0 [⟨S1x10000, p0⟩, ⟨S1x10000, p1⟩, ⟨S1x10000, p2⟩, ⟨S1x10000, p3⟩, ⟨S1x10000, p4⟩,
        ⟨S3x10000, p5⟩] h (ix2 r n)
      = match r with
        | ⟨0, _⟩ => p0 (ix2 0 n)
        | ⟨1, _⟩ => p1 (ix2 0 n)
        | ⟨2, _⟩ => p2 (ix2 0 n)
        | ⟨3, _⟩ => p3 (ix2 0 n)
        | ⟨4, _⟩ => p4 (ix2 0 n)
        | ⟨5, _⟩ => p5 (ix2 0 n)
        | ⟨6, _⟩ => p5 (ix2 1 n)
        | ⟨7, _⟩ => p5 (ix2 2 n) := by
  match r with
  | ⟨0, _⟩ =>
    exact concatenate_apply_piece (t := S8x10000) 0 _ h _ 0 (by show _ < 6; omega) S1x10000 p0 rfl rfl 0 rfl (ix2 0 n) (by intro b hb; match b with | ⟨0, _⟩ => exact absurd rfl hb | ⟨1, _⟩ => rfl) rfl
  | ⟨1, _⟩ =>
    exact concatenate_apply_piece (t := S8x10000) 0 _ h _ 1 (by show _ < 6; omega) S1x10000 p1 rfl rfl 1 rfl (ix2 0 n) (by intro b hb; match b with | ⟨0, _⟩ => exact absurd rfl hb | ⟨1, _⟩ => rfl) rfl
  | ⟨2, _⟩ =>
    exact concatenate_apply_piece (t := S8x10000) 0 _ h _ 2 (by show _ < 6; omega) S1x10000 p2 rfl rfl 2 rfl (ix2 0 n) (by intro b hb; match b with | ⟨0, _⟩ => exact absurd rfl hb | ⟨1, _⟩ => rfl) rfl
  | ⟨3, _⟩ =>
    exact concatenate_apply_piece (t := S8x10000) 0 _ h _ 3 (by show _ < 6; omega) S1x10000 p3 rfl rfl 3 rfl (ix2 0 n) (by intro b hb; match b with | ⟨0, _⟩ => exact absurd rfl hb | ⟨1, _⟩ => rfl) rfl
  | ⟨4, _⟩ =>
    exact concatenate_apply_piece (t := S8x10000) 0 _ h _ 4 (by show _ < 6; omega) S1x10000 p4 rfl rfl 4 rfl (ix2 0 n) (by intro b hb; match b with | ⟨0, _⟩ => exact absurd rfl hb | ⟨1, _⟩ => rfl) rfl
  | ⟨5, _⟩ =>
    exact concatenate_apply_piece (t := S8x10000) 0 _ h _ 5 (by show _ < 6; omega) S3x10000 p5 rfl rfl 5 rfl (ix2 0 n) (by intro b hb; match b with | ⟨0, _⟩ => exact absurd rfl hb | ⟨1, _⟩ => rfl) rfl
  | ⟨6, _⟩ =>
    exact concatenate_apply_piece (t := S8x10000) 0 _ h _ 5 (by show _ < 6; omega) S3x10000 p5 rfl rfl 5 rfl (ix2 1 n) (by intro b hb; match b with | ⟨0, _⟩ => exact absurd rfl hb | ⟨1, _⟩ => rfl) rfl
  | ⟨7, _⟩ =>
    exact concatenate_apply_piece (t := S8x10000) 0 _ h _ 5 (by show _ < 6; omega) S3x10000 p5 rfl rfl 5 rfl (ix2 2 n) (by intro b hb; match b with | ⟨0, _⟩ => exact absurd rfl hb | ⟨1, _⟩ => rfl) rfl

/-! ## The entries of the selection block, row by row -/

/-- Rows 0 … 3: the one-hot entry of the row's word. -/
theorem sel_hot (w : Fin 4 → BitVec 32) (r : Fin 4) (n : Fin 10000) :
    sel w ⟨r.val, by have := r.isLt; omega⟩ n
      = FloatOps.sitofp (F := Ideal) .f32 ((IntOp.cmpi .eq (w r) (BitVec.ofNat 32 n.val)).setWidth 32) := by
  unfold sel; rw [dif_pos (show r.val < 4 from r.isLt)]

/-- Row 4: one. -/
theorem sel_ones (w : Fin 4 → BitVec 32) (n : Fin 10000) : sel w 4 n = 1 := by
  unfold sel; rw [dif_neg (by decide), if_pos (show (4 : Fin 8).val = 4 from rfl)]

/-- Rows 5 … 7: zero. -/
theorem sel_zero (w : Fin 4 → BitVec 32) (r : Fin 8) (h : 5 ≤ r.val) (n : Fin 10000) : sel w r n = 0 := by
  unfold sel; rw [dif_neg (by omega), if_neg (by omega)]

/-- The body's selection block (its six pieces laid along the rows, viewed with a leading unit axis) at an index. -/
theorem pay2_apply (w : Fin 4 → BitVec 32) (u : Fin 1) (r : Fin 8) (n : Fin 10000) :
    k0_pay2 (F := Ideal) (w 0) (w 1) (w 2) (w 3) (ix3 u r n) = sel w r n := by
  unfold k0_pay2
  dsimp only
  rw [shapeCast_ab_1ab_apply, cat6_apply]
  match r with
  | ⟨0, _⟩ => exact (hot_apply (w 0) n).trans (sel_hot w 0 n).symm
  | ⟨1, _⟩ => exact (hot_apply (w 1) n).trans (sel_hot w 1 n).symm
  | ⟨2, _⟩ => exact (hot_apply (w 2) n).trans (sel_hot w 2 n).symm
  | ⟨3, _⟩ => exact (hot_apply (w 3) n).trans (sel_hot w 3 n).symm
  | ⟨4, _⟩ => exact Cert.Hand.Consts.ofBits_one.trans (sel_ones w n).symm
  | ⟨5, _⟩ => exact Ideal.ofBits_zero_f32.trans (sel_zero w _ (Nat.le_refl 5) n).symm
  | ⟨6, _⟩ => exact Ideal.ofBits_zero_f32.trans (sel_zero w _ (by show 5 ≤ 6; omega) n).symm
  | ⟨7, _⟩ => exact Ideal.ofBits_zero_f32.trans (sel_zero w _ (by show 5 ≤ 7; omega) n).symm

/-- A one-hot row against a column picks the column's entry at the word (a word below 10000). -/
theorem sel_sum_hot (w : Fin 4 → BitVec 32) (r : Fin 4) (hw : (w r).toNat < 10000) (x : Fin 10000 → EReal) :
    ∑ n : Fin 10000, sel w ⟨r.val, by have := r.isLt; omega⟩ n * x n = x ⟨(w r).toNat, hw⟩ := by
  rw [Finset.sum_congr rfl fun n _ => congrArg (· * x n) (sel_hot w r n)]
  exact OneHotRow.sum_mul (by norm_num) (w r) hw x

/-- The row of ones against a column is the column's sum. -/
theorem sel_sum_ones (w : Fin 4 → BitVec 32) (x : Fin 10000 → EReal) :
    ∑ n : Fin 10000, sel w 4 n * x n = ∑ n : Fin 10000, x n :=
  Finset.sum_congr rfl fun n _ => by rw [sel_ones, one_mul]

end Cert.Hand.KSel

end
-- ==== Proof.KDot.lean ====
import proofs.«415065_j13434657702539_3_alg».proof.Proof.Gen.KernelIdeal
import Idealize.ShloMosaic.Lib.ValueIdx
import Idealize.ShloMosaic.PureOps.Ideal.Laws

noncomputable section

namespace Cert.Hand.KDot

open Cert.KernelIdeal Cert.KernelIdeal.Gen
open Idealize.ShloMosaic Idealize.ShloMosaic.ValueIdx

/-- The left operand's index on its batch axis 0 is the result index's coordinate 0. -/
theorem lhs_0 (i : S2x8x128.Idx) (q : dot_S2x8x10000_S2x10000x128_S2x8x128_2_1_1_2_0_0.contr.Idx) :
    (dot_S2x8x10000_S2x10000x128_S2x8x128_2_1_1_2_0_0.lhsIdx i q 0).val = (i 0).val := by
  unfold DotDims.lhsIdx
  rw [dif_pos (show (0 : Fin S2x8x10000.rank) ∈ dot_S2x8x10000_S2x10000x128_S2x8x128_2_1_1_2_0_0.lhsBatch by decide)]
  rfl

/-- The left operand's index on its free axis 1 is the result index's coordinate 1. -/
theorem lhs_1 (i : S2x8x128.Idx) (q : dot_S2x8x10000_S2x10000x128_S2x8x128_2_1_1_2_0_0.contr.Idx) :
    (dot_S2x8x10000_S2x10000x128_S2x8x128_2_1_1_2_0_0.lhsIdx i q 1).val = (i 1).val := by
  unfold DotDims.lhsIdx
  rw [dif_neg (show ¬(1 : Fin S2x8x10000.rank) ∈ dot_S2x8x10000_S2x10000x128_S2x8x128_2_1_1_2_0_0.lhsBatch by decide), dif_pos (show (1 : Fin S2x8x10000.rank) ∈ dot_S2x8x10000_S2x10000x128_S2x8x128_2_1_1_2_0_0.lhsNonContracting by decide)]
  rfl

/-- The left operand's index on its contracted axis 2 is the contraction position. -/
theorem lhs_2 (i : S2x8x128.Idx) (q : dot_S2x8x10000_S2x10000x128_S2x8x128_2_1_1_2_0_0.contr.Idx) :
    (dot_S2x8x10000_S2x10000x128_S2x8x128_2_1_1_2_0_0.lhsIdx i q 2).val = (q ⟨0, by decide⟩).val :=
  dot_S2x8x10000_S2x10000x128_S2x8x128_2_1_1_2_0_0.lhsIdx_val_of_single rfl i q

/-- The right operand's index on its batch axis 0 is the result index's coordinate 0. -/
theorem rhs_0 (i : S2x8x128.Idx) (q : dot_S2x8x10000_S2x10000x128_S2x8x128_2_1_1_2_0_0.contr.Idx) :
    (dot_S2x8x10000_S2x10000x128_S2x8x128_2_1_1_2_0_0.rhsIdx i q 0).val = (i 0).val := by
  unfold DotDims.rhsIdx
  rw [dif_pos (show (0 : Fin S2x10000x128.rank) ∈ dot_S2x8x10000_S2x10000x128_S2x8x128_2_1_1_2_0_0.rhsBatch by decide)]
  rfl

/-- The right operand's index on its contracted axis 1 is the contraction position. -/
theorem rhs_1 (i : S2x8x128.Idx) (q : dot_S2x8x10000_S2x10000x128_S2x8x128_2_1_1_2_0_0.contr.Idx) :
    (dot_S2x8x10000_S2x10000x128_S2x8x128_2_1_1_2_0_0.rhsIdx i q 1).val = (q ⟨0, by decide⟩).val :=
  dot_S2x8x10000_S2x10000x128_S2x8x128_2_1_1_2_0_0.rhsIdx_val_of_single rfl i q

/-- The right operand's index on its free axis 2 is the result index's coordinate 2. -/
theorem rhs_2 (i : S2x8x128.Idx) (q : dot_S2x8x10000_S2x10000x128_S2x8x128_2_1_1_2_0_0.contr.Idx) :
    (dot_S2x8x10000_S2x10000x128_S2x8x128_2_1_1_2_0_0.rhsIdx i q 2).val = (i 2).val := by
  unfold DotDims.rhsIdx
  rw [dif_neg (show ¬(2 : Fin S2x10000x128.rank) ∈ dot_S2x8x10000_S2x10000x128_S2x8x128_2_1_1_2_0_0.rhsBatch by decide), dif_pos (show (2 : Fin S2x10000x128.rank) ∈ dot_S2x8x10000_S2x10000x128_S2x8x128_2_1_1_2_0_0.rhsNonContracting by decide)]
  rfl

/-- The body's batched product (batch axis 0 on both operands and on the result, the left operand's last axis
    contracted with the right operand's middle axis) into the zero accumulator, over the extended reals, at entry
    (j, r, d): the sum over the 10000 contraction positions of lhs (j, r, n) times rhs (j, n, d). -/
theorem bdot_apply (lhs : FVec Ideal S2x8x10000 .f32) (rhs : FVec Ideal S2x10000x128 .f32) (j : Fin 2) (r : Fin 8) (d : Fin 128) :
    matmul dot_S2x8x10000_S2x10000x128_S2x8x128_2_1_1_2_0_0 none lhs rhs (constant S2x8x128 .f32 0x00000000#32) (ix3 j r d)
      = ∑ n : Fin 10000, lhs (ix3 j r n) * rhs (ix3 j n d) := by
  simp only [matmul]
  rw [Ideal.matmul_constant_zero_apply, ← Equiv.sum_comp (ValueIdx.contrEquiv1 dot_S2x8x10000_S2x10000x128_S2x8x128_2_1_1_2_0_0 10000 rfl rfl).symm]
  refine Finset.sum_congr rfl fun n _ => ?_
  have hk := ValueIdx.contrEquiv1_symm_val dot_S2x8x10000_S2x10000x128_S2x8x128_2_1_1_2_0_0 10000 rfl rfl n
  have el : dot_S2x8x10000_S2x10000x128_S2x8x128_2_1_1_2_0_0.lhsIdx (ix3 j r d) ((ValueIdx.contrEquiv1 dot_S2x8x10000_S2x10000x128_S2x8x128_2_1_1_2_0_0 10000 rfl rfl).symm n) = ix3 j r n := funext fun a => Fin.ext (by
    match a with
    | ⟨0, _⟩ => exact lhs_0 _ _
    | ⟨1, _⟩ => exact lhs_1 _ _
    | ⟨2, _⟩ => exact (lhs_2 _ _).trans hk)
  have er : dot_S2x8x10000_S2x10000x128_S2x8x128_2_1_1_2_0_0.rhsIdx (ix3 j r d) ((ValueIdx.contrEquiv1 dot_S2x8x10000_S2x10000x128_S2x8x128_2_1_1_2_0_0 10000 rfl rfl).symm n) = ix3 j n d := funext fun a => Fin.ext (by
    match a with
    | ⟨0, _⟩ => exact rhs_0 _ _
    | ⟨1, _⟩ => exact (rhs_1 _ _).trans hk
    | ⟨2, _⟩ => exact rhs_2 _ _)
  rw [el, er]

end Cert.Hand.KDot

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.KBody.lean ====
/-
  THE BODY'S PAYLOAD READ AT AN ENTRY, over the extended reals.

  Entry (j, 0, d) of the block the body stores, for batch j of the grid point and output column d, is

      relu ( Σ_k mean_j[k] · W[512 + k, d] + Σ_k g_{j,0}[k] · W[k, d] + … + Σ_k g_{j,3}[k] · W[384 + k, d] )

  where row r of the selection matrix times the batch's slab of H gives, for r < 4, row idx_{j,r} of the slab (a
  one-hot row picks one entry of each column) and, for r = 4, the column sums; mean_j is the column sums times the
  named reciprocal 1/10000 and g_{j,f} the selected row rectified. Narrowing to bf16 is the identity on extended reals.
-/
import proofs.«415065_j13434657702539_3_alg».proof.Proof.KOut
import proofs.«415065_j13434657702539_3_alg».proof.Proof.KSel
import proofs.«415065_j13434657702539_3_alg».proof.Proof.KDot
import proofs.«415065_j13434657702539_3_alg».proof.Proof.LibPlainDot
import proofs.«415065_j13434657702539_3_alg».proof.Proof.Spec
import Idealize.ShloMosaic.PureOps.IdealRules

set_option maxRecDepth 16384

noncomputable section

namespace Cert.Hand.KBody

open Cert.KernelIdeal Cert.KernelIdeal.Gen Cert.Hand.Spec
open Idealize.ShloMosaic Idealize.ShloMosaic.ValueIdx
open Cert.KernelIdeal.Facts₀

/-! ## Layout steps at an entry -/

/-- A [2, 128] array viewed [2, 1, 128] reads (j, d) at (j, u, d). -/
theorem cast_add_mid (x : S2x128.Idx → EReal) (h : S2x128.ShapeCasts S2x1x128) (j : Fin 2) (u : Fin 1) (d : Fin 128) :
    shapeCast S2x1x128 x h (ix3 j u d) = x (ix2 j d) :=
  shapeCast_apply x h _ _ (by
    have hu : u.val = 0 := by omega
    rw [Shape.rowMajor_val_three, Shape.rowMajor_val_two]
    show j.val * 128 + d.val = (j.val * 1 + u.val) * 128 + d.val
    rw [hu]; omega)

/-- A [2, 1, 128] array viewed [2, 128] reads (j, 0, d) at (j, d). -/
theorem cast_drop_mid (x : S2x1x128.Idx → EReal) (h : S2x1x128.ShapeCasts S2x128) (j : Fin 2) (d : Fin 128) :
    shapeCast S2x128 x h (ix2 j d) = x (ix3 j (0 : Fin 1) d) :=
  shapeCast_apply x h _ _ (by
    rw [Shape.rowMajor_val_three, Shape.rowMajor_val_two]
    show (j.val * 1 + 0) * 128 + d.val = j.val * 128 + d.val
    omega)

/-- Row f of a [2, 8, 128] or [2, 4, 128] array cut out as a [2, 1, 128] slab. -/
theorem slice_row8 (x : S2x8x128.Idx → EReal) (f : Nat) (hf : f < 8) (h : S2x8x128.Slices ![0, f, 0] S2x1x128) (j : Fin 2) (d : Fin 128) :
    extractStridedSlice S2x1x128 ![0, f, 0] x h (ix3 j (0 : Fin 1) d) = x (ix3 j (⟨f, hf⟩ : Fin 8) d) :=
  extractStridedSlice_apply _ x h _ _ (fun a => by
    match a with
    | ⟨0, _⟩ => show j.val = 0 + j.val; omega
    | ⟨1, _⟩ => show f = f + 0; omega
    | ⟨2, _⟩ => show d.val = 0 + d.val; omega)

theorem slice_row4 (x : S2x4x128.Idx → EReal) (f : Fin 4) (h : S2x4x128.Slices ![0, f.val, 0] S2x1x128) (j : Fin 2) (d : Fin 128) :
    extractStridedSlice S2x1x128 ![0, f.val, 0] x h (ix3 j (0 : Fin 1) d) = x (ix3 j f d) :=
  extractStridedSlice_apply _ x h _ _ (fun a => by
    match a with
    | ⟨0, _⟩ => show j.val = 0 + j.val; omega
    | ⟨1, _⟩ => show f.val = f.val + 0; omega
    | ⟨2, _⟩ => show d.val = 0 + d.val; omega)

/-- The first four rows of a [2, 8, 128] array. -/
theorem slice_top4 (x : S2x8x128.Idx → EReal) (h : S2x8x128.Slices ![0, 0, 0] S2x4x128) (j : Fin 2) (f : Fin 4) (d : Fin 128) :
    extractStridedSlice S2x4x128 ![0, 0, 0] x h (ix3 j f d) = x (ix3 j (⟨f.val, by have := f.isLt; omega⟩ : Fin 8) d) :=
  extractStridedSlice_apply _ x h _ _ (fun a => by
    match a with
    | ⟨0, _⟩ => show j.val = 0 + j.val; omega
    | ⟨1, _⟩ => show f.val = 0 + f.val; omega
    | ⟨2, _⟩ => show d.val = 0 + d.val; omega)

/-- Rows off … off + 127 of the [640, 128] matrix. -/
theorem slice_wblock (x : S640x128.Idx → EReal) (off : Nat) (hoff : off + 128 ≤ 640) (h : S640x128.Slices ![off, 0] S128x128) (k : Fin 128) (d : Fin 128) :
    extractStridedSlice S128x128 ![off, 0] x h (ix2 k d) = x (ix2 (⟨off + k.val, by have := k.isLt; omega⟩ : Fin 640) d) :=
  extractStridedSlice_apply _ x h _ _ (fun a => by
    match a with
    | ⟨0, _⟩ => show off + k.val = off + k.val; rfl
    | ⟨1, _⟩ => show d.val = 0 + d.val; omega)

/-! ## The five 128-wide products -/

theorem plainDims : PlainDot.IsPlain dot_S2x128_S128x128_S2x128_1_0_0_1_n_n := ⟨rfl, rfl, rfl, rfl, rfl, rfl⟩

/-- One block product: features e (narrowed, which changes nothing) against rows off … off + 127 of the matrix. -/
theorem block_dot (e : FVec Ideal S2x128 .f32) (x1 : FVec Ideal S640x128 .bf16) (off : Nat) (hoff : off + 128 ≤ 640)
    (hs : S640x128.Slices ![off, 0] S128x128) (hc : S640x128.ShapeCasts S640x128) (hb : FTy.bits .bf16 < FTy.bits .f32)
    (j : Fin 2) (d : Fin 128) :
    matmul dot_S2x128_S128x128_S2x128_1_0_0_1_n_n none (truncf .bf16 e hb)
        (extractStridedSlice S128x128 ![off, 0] (shapeCast S640x128 x1 hc : FVec Ideal S640x128 .bf16) hs : FVec Ideal S128x128 .bf16) (constant S2x128 .f32 0x00000000#32) (ix2 j d)
      = ∑ k : Fin 128, e (ix2 j k) * x1 (ix2 (⟨off + k.val, by have := k.isLt; omega⟩ : Fin 640) d) := by
  refine (plainDims.matmul_zero_apply none _ _ j d).trans ?_
  refine Finset.sum_congr rfl fun k _ => ?_
  rw [slice_wblock _ off hoff, shapeCast_self]
  rfl

/-- The store's payload at (j, 0, d), from the mean row v83, the rectified selected rows v86 and the matrix. -/
theorem pay1_apply (v83 : FVec Ideal S2x128 .f32) (v86 : FVec Ideal S2x4x128 .f32) (x1 : Vec Ideal S640x128 .bf16)
    (j : Fin 2) (d : Fin 128) :
    k0_pay1 (F := Ideal) v83 v86 x1 (ix3 j (0 : Fin 1) d)
      = max (proj (fun k => v83 (ix2 j k)) x1 4 d + proj (fun k => v86 (ix3 j 0 k)) x1 0 d + proj (fun k => v86 (ix3 j 1 k)) x1 1 d
          + proj (fun k => v86 (ix3 j 2 k)) x1 2 d + proj (fun k => v86 (ix3 j 3 k)) x1 3 d) 0 := by
  unfold k0_pay1
  rw [cast_add_mid]
  rw [maximumf_apply, addf_apply, addf_apply, addf_apply, addf_apply]
  rw [block_dot _ x1 512 (by omega), block_dot _ x1 0 (by omega), block_dot _ x1 128 (by omega), block_dot _ x1 256 (by omega),
    block_dot _ x1 384 (by omega)]
  have e (f : Fin 4) (k : Fin 128) (hs : S2x4x128.Slices ![0, f.val, 0] S2x1x128) (hc : S2x1x128.ShapeCasts S2x128) :
      shapeCast S2x128 (extractStridedSlice S2x1x128 ![0, f.val, 0] v86 hs) hc (ix2 j k) = v86 (ix3 j f k) :=
    (cast_drop_mid _ _ j k).trans (slice_row4 v86 f _ j k)
  have z : (broadcast S2x128 (FloatOps.ofBits (F := Ideal) .f32 0#32) (ix2 j d) : EReal) = 0 := Ideal.ofBits_zero_f32
  rw [z]
  refine congrArg (max · 0) ?_
  unfold proj
  refine congrArg₂ (· + ·) (congrArg₂ (· + ·) (congrArg₂ (· + ·) (congrArg₂ (· + ·) rfl ?_) ?_) ?_) ?_
  · exact Finset.sum_congr rfl fun k _ => congrArg (· * _) (e 0 k _ _)
  · exact Finset.sum_congr rfl fun k _ => congrArg (· * _) (e 1 k _ _)
  · exact Finset.sum_congr rfl fun k _ => congrArg (· * _) (e 2 k _ _)
  · exact Finset.sum_congr rfl fun k _ => congrArg (· * _) (e 3 k _ _)

/-! ## The selection matrix against the slab of H -/

/-- The named reciprocal denotes 1/10000 over the extended reals, by the certificate's table of named constants. -/
theorem inv_named : Named.named (F := Ideal) Cert.KernelIdeal.κ "inv_10000" (φ := .f32) 0x38D1B717#32 = ((1 / 10000 : ℝ) : EReal) :=
  IdealRules.named_const.ideal_named_scalar _ _ _ _ rfl

/-- Entry (j, r, k) of the product of the two batches' selection blocks with the slab: row r of batch j's selection
    block against column k of batch j's slab. -/
theorem pay3_apply (w : Fin 2 → Fin 4 → BitVec 32) (x0 : Vec Ideal S2x10000x128 .f32) (j : Fin 2) (r : Fin 8) (k : Fin 128) :
    k0_pay3 (F := Ideal) (iota .tc S1x10000 32 [1] Facts₀.iota_S1x10000_d1_w32) (k0_pay2 (w 0 0) (w 0 1) (w 0 2) (w 0 3))
        (w 1 0) (w 1 1) (w 1 2) (w 1 3) x0 (ix3 j r k)
      = ∑ n : Fin 10000, KSel.sel (w j) r n * x0 (ix3 j n k) := by
  have e : k0_pay3 (F := Ideal) (iota .tc S1x10000 32 [1] Facts₀.iota_S1x10000_d1_w32) (k0_pay2 (w 0 0) (w 0 1) (w 0 2) (w 0 3))
        (w 1 0) (w 1 1) (w 1 2) (w 1 3) x0
      = matmul dot_S2x8x10000_S2x10000x128_S2x8x128_2_1_1_2_0_0 none
          (concatenate S2x8x10000 0 [⟨S1x8x10000, k0_pay2 (F := Ideal) (w 0 0) (w 0 1) (w 0 2) (w 0 3)⟩,
            ⟨S1x8x10000, k0_pay2 (F := Ideal) (w 1 0) (w 1 1) (w 1 2) (w 1 3)⟩] Facts₀.concatenates_S1x8x10000_S1x8x10000_S2x8x10000_d0)
          x0 (constant S2x8x128 .f32 0x00000000#32) := rfl
  rw [e, KDot.bdot_apply]
  refine Finset.sum_congr rfl fun n _ => congrArg (· * _) ?_
  match j with
  | ⟨0, _⟩ =>
    exact (concatenate_pair_apply_left (s₁ := S1x8x10000) (s₂ := S1x8x10000) (0 : Fin 3) _ _ _ (ix3 (0 : Fin 2) r n) rfl (ix3 (0 : Fin 1) r n)
      (fun b => by match b with | ⟨0, _⟩ => rfl | ⟨1, _⟩ => rfl | ⟨2, _⟩ => rfl)).trans (KSel.pay2_apply (w 0) 0 r n)
  | ⟨1, _⟩ =>
    exact (concatenate_pair_apply_right (s₁ := S1x8x10000) (s₂ := S1x8x10000) (0 : Fin 3) _ _ _ (ix3 (1 : Fin 2) r n) rfl rfl (ix3 (0 : Fin 1) r n)
      (fun b hb => by match b with | ⟨0, _⟩ => exact absurd rfl hb | ⟨1, _⟩ => rfl | ⟨2, _⟩ => rfl) rfl).trans (KSel.pay2_apply (w 1) 0 r n)

/-- The mean row of batch j: the column sums of the slab times 1/10000. -/
theorem pay4_apply (w : Fin 2 → Fin 4 → BitVec 32) (x0 : Vec Ideal S2x10000x128 .f32) (j : Fin 2) (k : Fin 128) :
    k0_pay4 (F := Ideal) (iota .tc S1x10000 32 [1] Facts₀.iota_S1x10000_d1_w32) (k0_pay2 (w 0 0) (w 0 1) (w 0 2) (w 0 3))
        (w 1 0) (w 1 1) (w 1 2) (w 1 3) x0 (ix2 j k)
      = (∑ n : Fin 10000, x0 (ix3 j n k)) * ((1 / 10000 : ℝ) : EReal) := by
  unfold k0_pay4
  rw [mulf_apply, cast_drop_mid, slice_row8 _ 4 (by omega), pay3_apply]
  exact congrArg₂ (· * ·) (KSel.sel_sum_ones (w j) (fun n => x0 (ix3 j n k))) inv_named

/-- Selected row f of batch j, rectified (a word below 10000). -/
theorem pay5_apply (w : Fin 2 → Fin 4 → BitVec 32) (hw : ∀ r f, (w r f).toNat < 10000) (x0 : Vec Ideal S2x10000x128 .f32)
    (j : Fin 2) (f : Fin 4) (k : Fin 128) :
    k0_pay5 (F := Ideal) (iota .tc S1x10000 32 [1] Facts₀.iota_S1x10000_d1_w32) (k0_pay2 (w 0 0) (w 0 1) (w 0 2) (w 0 3))
        (w 1 0) (w 1 1) (w 1 2) (w 1 3) x0 (ix3 j f k)
      = max (x0 (ix3 j (⟨(w j f).toNat, hw j f⟩ : Fin 10000) k)) 0 := by
  unfold k0_pay5
  rw [maximumf_apply, slice_top4, pay3_apply, KSel.sel_sum_hot (w j) f (hw j f) (fun n => x0 (ix3 j n k))]
  exact congrArg (max _ ·) Ideal.ofBits_zero_f32

/-! ## The block the body stores -/

/-- ENTRY (j, 0, d) OF THE STORED BLOCK, where every word is below 10000. -/
theorem body_apply (w : Fin 2 → Fin 4 → BitVec 32) (hw : ∀ r f, (w r f).toNat < 10000)
    (x0 : Vec Ideal S2x10000x128 .f32) (x1 : Vec Ideal S640x128 .bf16) (j : Fin 2) (d : Fin 128) :
    KOut.body (F := Ideal) w x0 x1 (ix3 j (0 : Fin 1) d)
      = max (proj (fun k => (∑ n : Fin 10000, x0 (ix3 j n k)) * ((1 / 10000 : ℝ) : EReal)) x1 4 d
          + proj (fun k => max (x0 (ix3 j (⟨(w j 0).toNat, hw j 0⟩ : Fin 10000) k)) 0) x1 0 d
          + proj (fun k => max (x0 (ix3 j (⟨(w j 1).toNat, hw j 1⟩ : Fin 10000) k)) 0) x1 1 d
          + proj (fun k => max (x0 (ix3 j (⟨(w j 2).toNat, hw j 2⟩ : Fin 10000) k)) 0) x1 2 d
          + proj (fun k => max (x0 (ix3 j (⟨(w j 3).toNat, hw j 3⟩ : Fin 10000) k)) 0) x1 3 d) 0 := by
  unfold KOut.body
  rw [pay1_apply]
  simp only [pay4_apply w, pay5_apply w hw]

end Cert.Hand.KBody

end
-- ==== Proof.KTable.lean ====
import proofs.«415065_j13434657702539_3_alg».proof.Proof.Gen.KernelIdeal.Frame
import proofs.«415065_j13434657702539_3_alg».proof.Proof.KOut
import Idealize.ShloMosaic.Lib.Pipeline.Value
import Idealize.ShloMosaic.Lib.ValueIdx
import Idealize.ShloMosaic.Lib.StableHlo.Run

set_option maxRecDepth 16384

noncomputable section

namespace Cert.Hand.KTable

open Cert.KernelIdeal Cert.KernelIdeal.Gen
open Idealize.ShloMosaic Idealize.ShloMosaic.TcCoe Idealize.SL.Sem Idealize.ShloMosaic.ValueIdx

variable {F : FTy → Type} [FloatOps F] [Named F]
variable (m : (ℓ : Loc nD τ sig) → Buf (Elt F) ℓ)

/-- A word below 10000 is its own clamp into 0 … 9999 (maximum with 0, then minimum with 9999, signed). -/
theorem clip_id (w : BitVec 32) (hw : w.toNat < 10000) : IntOp.minsi (9999#32) (IntOp.maxsi (0#32) w) = w := by
  have h32 := w.isLt
  have hti : w.toInt = w.toNat := by rw [BitVec.toInt_eq_toNat_cond]; split <;> omega
  have h0 : (0#32 : BitVec 32).toInt = 0 := by decide
  have h9 : (9999#32 : BitVec 32).toInt = 9999 := by decide
  have hmax : IntOp.maxsi (0#32) w = w := by
    unfold IntOp.maxsi
    split <;> rename_i hc <;> simp only [BitVec.slt, hti, h0, decide_eq_true_eq] at hc
    · omega
    · rfl
  rw [hmax]
  unfold IntOp.minsi
  split <;> rename_i hc <;> simp only [BitVec.slt, hti, h9, decide_eq_true_eq] at hc
  · omega
  · rfl

/-- The flat [256] table the region finds: the [64, 4] index words, each clamped into 0 … 9999, in row-major order. -/
theorem table_eq : (V m 0 main_v1 : S256.Idx → Elt F .i32)
    = shapeCast S256 (minsi (broadcastInDim S64x4 ![] bcast_S_S64x4 (constantI S_ 32 9999#32))
        (maxsi (broadcastInDim S64x4 ![] bcast_S_S64x4 (constantI S_ 32 0#32)) (m (((0 : Dev nD) : Thread nD τ).loc main_arg1)))) shapeCasts_S64x4_S256 := by
  dsimp only [V]
  simp only [hostOps0, hostOps0_1, hostOps0_2, List.flatten_cons, List.flatten_nil, List.append_nil, List.cons_append, List.nil_append]
  after_results
  rfl

/-- The word the body loads at batch r, word f of grid point i is the table's entry 8 i + 4 r + f. -/
theorem wordAt_eq (c : Dev nD) (i : grid0.Coords) (r : Fin 2) (f : Fin 4) (xt0 : TbBuf0 (F := F) c tbM0_0)
    (p : S256.Idx) (hp : (p 0).val = 8 * (i 0).val + 4 * r.val + f.val) :
    Cert.Hand.KOut.wordAt c i xt0 r f = xt0 p := by
  unfold Cert.Hand.KOut.wordAt
  rw [View.readAt_apply]
  show xt0 _ = xt0 p
  refine congrArg xt0 (funext fun a => Fin.ext ?_)
  match a with
  | ⟨0, _⟩ =>
    -- the unit rectangle has one index, 0; its place in the table is the offset
    have h1 : 0 < S1.numel := Facts₀.numel1_S1.symm ▸ Nat.one_pos
    show k0_off1 i (BitVec.ofNat 32 r.val) (BitVec.ofNat 32 f.val) 0 + 1 * (Shape.Idx.first h1 (0 : Fin 1)).val = (p 0).val
    have h0 : (Shape.Idx.first h1 (0 : Fin 1)).val = 0 := by
      have := (Shape.Idx.first h1 (0 : Fin 1)).isLt
      have e : S1.size (0 : Fin 1) = 1 := by decide
      omega
    rw [h0, k0_off1_eq i r f, hp]
    show 8 * (i 0).val + 4 * r.val + f.val + 1 * 0 = 8 * (i 0).val + 4 * r.val + f.val
    omega

/-- Where every index word is below 10000, word f of batch r of grid point i, as the body loads it from the table
    the region finds, is indice[2 i + r, f]. -/
theorem word_eq (hidx : ∀ (c : Dev nD) (j : S64x4.Idx), (m ((c : Thread nD τ).loc main_arg1) j).toNat < 10000)
    (c : Dev nD) (i : grid0.Coords) (r : Fin 2) (f : Fin 4) :
    Cert.Hand.KOut.wordAt c i (tbl m 0) r f
      = m ((c : Thread nD τ).loc main_arg1) (ix2 (⟨2 * (i 0).val + r.val, by have h : (i 0).val < 32 := (i 0).isLt; have := r.isLt; omega⟩ : Fin 64) f) := by
  -- one device
  obtain rfl : c = 0 := Subsingleton.elim _ _
  have hi : (i 0).val < 32 := (i 0).isLt
  have hr := r.isLt
  have hf := f.isLt
  -- the loaded word is entry 8 i + 4 r + f of the table
  rw [wordAt_eq 0 i r f (tbl m 0) (ix1 ⟨8 * (i 0).val + 4 * r.val + f.val, by omega⟩) rfl]
  show (V m 0 main_v1 : S256.Idx → Elt F .i32) _ = _
  -- flat position 8 i + 4 r + f = 4 (2 i + r) + f of the reshape is row 2 i + r, column f of the [64, 4] array
  rw [table_eq m, shapeCast_apply _ shapeCasts_S64x4_S256 _
    (ix2 (⟨2 * (i 0).val + r.val, by omega⟩ : Fin 64) f)
    (by rw [Shape.rowMajor_val_two, Shape.rowMajor_val_one]; show (2 * (i 0).val + r.val) * 4 + f.val = 8 * (i 0).val + 4 * r.val + f.val; omega)]
  -- there the clamp of a word below 10000 is the word
  exact clip_id _ (hidx 0 _)

end Cert.Hand.KTable

end
-- ==== Proof.KValue.lean ====
/-
  THE KERNEL'S RUN, WITH ITS RESULT NAMED.

  The region's grid has 32 points; point t stages rows 2 t and 2 t + 1 of H (a [2, 10000, 128] block), the whole
  narrowed matrix, and writes back rows 2 t, 2 t + 1 of the [64, 1, 128] result. The body leaves in the output block
  the payload computed in the previous modules; read through the block of point t = b / 2 that is the specification's
  value at row b, so the blocks — which tile the result — leave the whole array at the specification.
-/
import proofs.«415065_j13434657702539_3_alg».proof.Proof.KBody
import proofs.«415065_j13434657702539_3_alg».proof.Proof.KTable
import Idealize.ShloMosaic.Lib.Pipeline.Value

set_option maxRecDepth 16384

noncomputable section

namespace Cert.Hand.KValue

open Cert.KernelIdeal Cert.KernelIdeal.Gen Cert.Hand.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- No window's index map reads the table, so the pipeline's side condition on the table is empty. -/
theorem okm : Ok m := trivial

/-- The printed index maps over the grid: windows 0 and 2 move with the point along axis 0, window 1 stays. -/
theorem idx_facts (hO : Ok m) : ∀ t : Fin (cfgM m hO).N,
    ((cfgM m hO).win 0).index t (0 : Fin 3) = t.val ∧ ((cfgM m hO).win 0).index t (1 : Fin 3) = 0
    ∧ ((cfgM m hO).win 0).index t (2 : Fin 3) = 0
    ∧ ((cfgM m hO).win 1).index t (0 : Fin 2) = 0 ∧ ((cfgM m hO).win 1).index t (1 : Fin 2) = 0
    ∧ ((cfgM m hO).win 2).index t (0 : Fin 3) = t.val ∧ ((cfgM m hO).win 2).index t (1 : Fin 3) = 0
    ∧ ((cfgM m hO).win 2).index t (2 : Fin 3) = 0 :=
  (by decide +kernel : ∀ t : Fin grid0.N,
    cc0_transform_0 (grid0.coords t) (0 : Fin 3) = t.val ∧ cc0_transform_0 (grid0.coords t) (1 : Fin 3) = 0
    ∧ cc0_transform_0 (grid0.coords t) (2 : Fin 3) = 0
    ∧ cc0_transform_1 (grid0.coords t) (0 : Fin 2) = 0 ∧ cc0_transform_1 (grid0.coords t) (1 : Fin 2) = 0
    ∧ cc0_transform_2 (grid0.coords t) (0 : Fin 3) = t.val ∧ cc0_transform_2 (grid0.coords t) (1 : Fin 3) = 0
    ∧ cc0_transform_2 (grid0.coords t) (2 : Fin 3) = 0)

/-! ## The stored block is the specification's rows -/

/-- For the two batches b0, b0 + 1 of a grid point: if the words, the slab and the matrix the body reads are the
    arrays' entries for those batches, entry (j, 0, d) of the stored block is the specification at row b0 + j. -/
theorem body_is_G (H : TH.Idx → EReal) (idx : TI.Idx → BitVec 32) (W : TW.Idx → EReal)
    (hidx : ∀ i : TI.Idx, (idx i).toNat < 10000) (b0 : Nat) (hb0 : b0 + 2 ≤ 64)
    (w : Fin 2 → Fin 4 → BitVec 32)
    (hw : ∀ (r : Fin 2) (f : Fin 4), w r f = idx (ix2 (⟨b0 + r.val, by have := r.isLt; omega⟩ : Fin 64) f))
    (x0 : Vec Ideal S2x10000x128 .f32)
    (hx0 : ∀ (j : Fin 2) (n : Fin 10000) (k : Fin 128), x0 (ix3 j n k) = H (ix3 (⟨b0 + j.val, by have := j.isLt; omega⟩ : Fin 64) n k))
    (x1 : Vec Ideal S640x128 .bf16) (hx1 : ∀ (q : Fin 640) (d : Fin 128), x1 (ix2 q d) = W (ix2 q d))
    (j : Fin 2) (d : Fin 128) :
    KOut.body (F := Ideal) w x0 x1 (ix3 j (0 : Fin 1) d)
      = G H idx W (ix3 (⟨b0 + j.val, by have := j.isLt; omega⟩ : Fin 64) (0 : Fin 1) d) := by
  have hwlt : ∀ r f, (w r f).toNat < 10000 := fun r f => by rw [hw]; exact hidx _
  rw [KBody.body_apply w hwlt]
  have hx1' : (x1 : TW.Idx → EReal) = W := funext fun q => by rw [eq_ix2 q]; exact hx1 _ _
  have hrow : ∀ (f : Fin 4) (k : Fin 128),
      max (x0 (ix3 j (⟨(w j f).toNat, hwlt j f⟩ : Fin 10000) k)) 0
        = gat H idx (⟨b0 + j.val, by have := j.isLt; omega⟩ : Fin 64) f k := fun f k => by
    unfold gat
    rw [hx0]
    refine congrArg (fun n => max (H (ix3 _ n k)) 0) (Fin.ext ?_)
    show (w j f).toNat = (rowOf _).val
    rw [rowOf_val_of_lt (hidx _), hw]
  have hmean : ∀ k : Fin 128, (∑ n : Fin 10000, x0 (ix3 j n k)) * ((1 / 10000 : ℝ) : EReal)
      = avg H (⟨b0 + j.val, by have := j.isLt; omega⟩ : Fin 64) k := fun k => by
    unfold avg
    exact congrArg (· * _) (Finset.sum_congr rfl fun n _ => hx0 j n k)
  simp only [hrow, hmean, hx1']
  rfl

/-- The point's coordinate is its number. -/
theorem coord_val : ∀ t : Fin grid0.N, ((grid0.coords t) 0).val = t.val := by decide +kernel

/-! ## The input blocks, read off the arrays -/

/-- The narrowed matrix the region finds is the matrix itself, entry by entry (narrowing is the identity on
    extended reals). -/
theorem wmat_eq (c : Dev nD) : (V m c main_v2 : S640x128.Idx → EReal) = m ((c : Thread nD τ).loc main_arg2) := by
  have e : (V m c main_v2 : S640x128.Idx → EReal)
      = (truncf .bf16 (m ((c : Thread nD τ).loc main_arg2) : FVec Ideal S640x128 .f32) Facts₀.bitsLt_bf16_f32 : FVec Ideal S640x128 .bf16) := by
    dsimp only [V]
    simp only [hostOps0, hostOps0_1, hostOps0_2, List.flatten_cons, List.flatten_nil, List.append_nil, List.cons_append, List.nil_append]
    after_results
  rw [e]
  rfl

theorem t_lt (hO : Ok m) (t : Fin (cfgM m hO).N) : t.val < 32 := lt_of_lt_of_eq t.isLt N_0

/-- Point t's block of H is rows 2 t, 2 t + 1. -/
theorem iblk0_apply (hO : Ok m) (c : Dev nD) (t : Fin (cfgM m hO).N) (j : Fin 2) (n : Fin 10000) (k : Fin 128) :
    iblk m hO c 0 t (ix3 j n k)
      = m ((c : Thread nD τ).loc main_arg0) (ix3 (⟨2 * t.val + j.val, by have := t_lt m hO t; have := j.isLt; omega⟩ : Fin 64) n k) := by
  obtain ⟨e0, e1, e2, -⟩ := idx_facts m hO t
  unfold iblk
  show V m c main_arg0 ((((cfgM m hO).win 0).blk t).view.emb (ix3 j n k)) = _
  rw [V_main_arg0]
  refine congrArg (m ((c : Thread nD τ).loc main_arg0)) (funext fun a => Fin.ext ?_)
  match a with
  | ⟨0, _⟩ => show ((cfgM m hO).win 0).index t (0 : Fin 3) * 2 + 1 * j.val = 2 * t.val + j.val; rw [e0]; omega
  | ⟨1, _⟩ => show ((cfgM m hO).win 0).index t (1 : Fin 3) * 10000 + 1 * n.val = n.val; rw [e1]; omega
  | ⟨2, _⟩ => show ((cfgM m hO).win 0).index t (2 : Fin 3) * 128 + 1 * k.val = k.val; rw [e2]; omega

/-- Every point's block of the matrix is the whole matrix. -/
theorem iblk1_apply (hO : Ok m) (c : Dev nD) (t : Fin (cfgM m hO).N) (q : Fin 640) (d : Fin 128) :
    iblk m hO c 1 t (ix2 q d) = m ((c : Thread nD τ).loc main_arg2) (ix2 q d) := by
  obtain ⟨-, -, -, e0, e1, -⟩ := idx_facts m hO t
  unfold iblk
  show V m c main_v2 ((((cfgM m hO).win 1).blk t).view.emb (ix2 q d)) = _
  rw [wmat_eq]
  refine congrArg (m ((c : Thread nD τ).loc main_arg2)) (funext fun a => Fin.ext ?_)
  match a with
  | ⟨0, _⟩ => show ((cfgM m hO).win 1).index t (0 : Fin 2) * 640 + 1 * q.val = q.val; rw [e0]; omega
  | ⟨1, _⟩ => show ((cfgM m hO).win 1).index t (1 : Fin 2) * 128 + 1 * d.val = d.val; rw [e1]; omega

/-- WHAT THE BODY LEAVES at point t: the payload of the words the table holds and the two input blocks. -/
theorem outs_eq (hO : Ok m) (c : Dev nD) (t : Fin (cfgM m hO).N) :
    outsAt0 m hO c t = KOut.body (KOut.wordAt c (grid0.coords t) (tbl m 0)) (iblk m hO c 0 t) (iblk m hO c 1 t) := by
  unfold outsAt0
  exact KOut.out_eq c _ _ _ _ _ _ _ _ _ _

/-! ## From blocks to the array -/

/-- The specification at the arrays core c holds at launch. -/
abbrev Gm (c : Dev nD) : TO.Idx → EReal :=
  G (m ((c : Thread nD τ).loc main_arg0)) (m ((c : Thread nD τ).loc main_arg1)) (m ((c : Thread nD τ).loc main_arg2))

/-- WHAT POINT t WRITES BACK is block t of the specification, where every index word is below 10000. -/
theorem flushed_eq (hidx : ∀ (c : Dev nD) (j : S64x4.Idx), (m ((c : Thread nD τ).loc main_arg1) j).toNat < 10000)
    (hO : Ok m) (c : Dev nD) (t : Fin (cfgM m hO).N) :
    (dats m hO 0 c).flushed 2 t = (((cfgM m hO).win 2).blk t).view.read (Elt Ideal) (Gm m c) := by
  show ((cfgM m hO).win 2).cut ((cfgM m hO).grid.coords t) ((dats m hO 0 c).after 2 t) = _
  rw [after0_2, outs_eq]
  obtain ⟨-, -, -, -, -, e0, e1, e2⟩ := idx_facts m hO t
  have ht := t_lt m hO t
  refine funext fun (y : S2x1x128.Idx) => ?_
  obtain ⟨j, u, d, rfl⟩ : ∃ (j : Fin 2) (u : Fin 1) (d : Fin 128), y = ix3 j u d := ⟨y 0, y 1, y 2, eq_ix3 y⟩
  obtain rfl : u = 0 := Subsingleton.elim _ _
  show KOut.body (F := Ideal) _ _ _ (ix3 j (0 : Fin 1) d) = Gm m c ((((cfgM m hO).win 2).blk t).view.emb (ix3 j (0 : Fin 1) d))
  have hemb : (((cfgM m hO).win 2).blk t).view.emb (ix3 j (0 : Fin 1) d)
      = ix3 (⟨2 * t.val + j.val, by have := j.isLt; omega⟩ : Fin 64) (0 : Fin 1) d := by
    funext a
    apply Fin.ext
    match a with
    | ⟨0, _⟩ => show ((cfgM m hO).win 2).index t (0 : Fin 3) * 2 + 1 * j.val = 2 * t.val + j.val; rw [e0]; omega
    | ⟨1, _⟩ => show ((cfgM m hO).win 2).index t (1 : Fin 3) * 1 + 1 * 0 = 0; rw [e1]
    | ⟨2, _⟩ => show ((cfgM m hO).win 2).index t (2 : Fin 3) * 128 + 1 * d.val = d.val; rw [e2]; omega
  rw [hemb]
  exact body_is_G (m ((c : Thread nD τ).loc main_arg0)) (m ((c : Thread nD τ).loc main_arg1)) (m ((c : Thread nD τ).loc main_arg2))
    (hidx c) (2 * t.val) (by omega) _
    (fun r f => (KTable.word_eq m hidx c (grid0.coords t) r f).trans
      (congrArg (fun b => m ((c : Thread nD τ).loc main_arg1) (ix2 b f)) (Fin.ext (by
        show 2 * ((grid0.coords t) 0).val + r.val = 2 * t.val + r.val
        rw [coord_val]))))
    _ (fun j n k => iblk0_apply m hO c t j n k) _ (fun q d => iblk1_apply m hO c t q d) j d

/-- Every row of the result is in the block of the point that is half its number: row b is entry b % 2 of the
    block of point b / 2. -/
theorem cover (hO : Ok m) (c : Dev nD) (i : S64x1x128.Idx) :
    ∃ t : Fin (cfgM m hO).N, ((cfgM m hO).win 2).flush t = true ∧ i ∈ (((cfgM m hO).win 2).blk t).view.set := by
  have hi0 : (i 0).val < 64 := (i 0).isLt
  have hi1 : (i 1).val < 1 := (i 1).isLt
  have hi2 : (i 2).val < 128 := (i 2).isLt
  have ht0 : (i 0).val / 2 < (cfgM m hO).N := by show (i 0).val / 2 < grid0.N; rw [N_0]; omega
  refine ⟨⟨(i 0).val / 2, ht0⟩, flush0_2 (adm m hO) _, ?_⟩
  obtain ⟨-, -, -, -, -, e0, e1, e2⟩ := idx_facts m hO ⟨(i 0).val / 2, ht0⟩
  have hemb : (((cfgM m hO).win 2).blk ⟨(i 0).val / 2, ht0⟩).view.emb
      (ix3 (⟨(i 0).val % 2, Nat.mod_lt _ (by decide)⟩ : Fin 2) (0 : Fin 1) (⟨(i 2).val, hi2⟩ : Fin 128)) = i := by
    funext a
    apply Fin.ext
    match a with
    | ⟨0, _⟩ =>
      show ((cfgM m hO).win 2).index ⟨(i 0).val / 2, ht0⟩ (0 : Fin 3) * 2 + 1 * ((i 0).val % 2) = (i 0).val
      rw [e0]; show (i 0).val / 2 * 2 + 1 * ((i 0).val % 2) = (i 0).val; omega
    | ⟨1, _⟩ =>
      show ((cfgM m hO).win 2).index ⟨(i 0).val / 2, ht0⟩ (1 : Fin 3) * 1 + 1 * 0 = (i 1).val
      rw [e1]; omega
    | ⟨2, _⟩ =>
      show ((cfgM m hO).win 2).index ⟨(i 0).val / 2, ht0⟩ (2 : Fin 3) * 128 + 1 * (i 2).val = (i 2).val
      rw [e2]; omega
  have h := View.emb_mem_set (((cfgM m hO).win 2).blk ⟨(i 0).val / 2, ht0⟩).view
    (ix3 (⟨(i 0).val % 2, Nat.mod_lt _ (by decide)⟩ : Fin 2) (0 : Fin 1) (⟨(i 2).val, hi2⟩ : Fin 128))
  rw [hemb] at h
  exact h

/-- THE RESULT ARRAY after the run is the specification. -/
theorem final (hidx : ∀ (c : Dev nD) (j : S64x4.Idx), (m ((c : Thread nD τ).loc main_arg1) j).toNat < 10000)
    (hO : Ok m) (c : Dev nD) : (dats m hO 0 c).arrAt 2 (cfgM m hO).N = Gm m c :=
  (dats m hO 0 c).arrAt_eq_of_cover 2 (Gm m c) (fun t _ => flushed_eq m hidx hO c t) (cover m hO c)

/-- THE KERNEL'S RUN with its result named: every weakly fair execution ends with the result array at the
    specification of the launch arrays and the three arguments unchanged. -/
theorem run (hidx : ∀ (c : Dev nD) (j : S64x4.Idx), (m ((c : Thread nD τ).loc main_arg1) j).toNat < 10000) :
    θ_run defs (onTc (τ := τ) (main (F := Ideal))) ⟨m, fun _ => 0, ρ⟩ fun r => ∀ c : Dev nD,
      r.2.mem ((c : Thread nD τ).loc main_v3) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ hq c => ?_) (run_main m ρ (okm m))
  exact ⟨((hq c).1 2).trans (final m hidx (okm m) c),
    ((hq c).1 0).trans ((((dats m (okm m) 0 c).arrAt_in 0 rfl _).trans ((A_eq m (okm m) c 0).trans (V_main_arg0 m c)))),
    ((hq c).2 main_arg1 (by decide : main_arg1 ∈ Pipeline.restRefs sig spec0)).trans (V_main_arg1 m c),
    ((hq c).2 main_arg2 (by decide : main_arg2 ∈ Pipeline.restRefs sig spec0)).trans (V_main_arg2 m c)⟩

end Cert.Hand.KValue

end
-- ==== Proof.lean ====
/-
  The certificate's claim: the kernel and its reference compute the same [64, 1, 128] array over the extended reals,
  for finite H and W and index words in 0 … 9999.

  Both programs compute, for each batch b,
      relu ( [ relu H[b, idx[b,0], ·], …, relu H[b, idx[b,3], ·], mean_n H[b, n, ·] ] · W )
  (Proof/Spec.lean's G). The kernel gets the four selected rows and the column sums of a batch's slab from ONE product
  with an 8 × 10000 selection matrix (four one-hot rows, a row of ones, three zero rows): over the extended reals
  0 · x = 0 and 1 · x = x for every x, so a one-hot row against a column is the column's entry at the word and the row
  of ones is the column's sum — no finiteness is needed. It scales the sums by the named reciprocal 1/10000, where the
  reference divides by 10000: on the extended reals the quotient by a nonzero real is the product with its inverse.
  It multiplies the five 128-wide feature blocks into the five row blocks of W separately and adds them (mean block
  first), where the reference lays the 640 features side by side and contracts once: a sum over 640 positions cut into
  5 blocks of 128 and reordered, which commutativity and associativity of + allow. It clamps each index word into
  0 … 9999 on the host, where the reference wraps a negative word and masks a word out of range: for words in
  0 … 9999, the domain the statement's precondition gives, all three leave the word as it is.

  The three frames: the kernel's two frames are the generated ones (no window's block index reads the prefetched
  table, so their side condition on the table is empty); the reference's is its generated run with the result dropped.
  The ledger's one entry is the named constant's statement.
-/
import proofs.«415065_j13434657702539_3_alg».proof.Defs
import proofs.«415065_j13434657702539_3_alg».proof.Proof.Gen.Kernel
import proofs.«415065_j13434657702539_3_alg».proof.Proof.Gen.Kernel.Skeleton
import proofs.«415065_j13434657702539_3_alg».proof.Proof.Gen.Kernel.Launch
import proofs.«415065_j13434657702539_3_alg».proof.Proof.Gen.Kernel.Points
import proofs.«415065_j13434657702539_3_alg».proof.Proof.Gen.Kernel.Frame
import proofs.«415065_j13434657702539_3_alg».proof.Proof.Gen.KernelIdeal
import proofs.«415065_j13434657702539_3_alg».proof.Proof.Gen.KernelIdeal.Skeleton
import proofs.«415065_j13434657702539_3_alg».proof.Proof.Gen.KernelIdeal.Launch
import proofs.«415065_j13434657702539_3_alg».proof.Proof.Gen.KernelIdeal.Points
import proofs.«415065_j13434657702539_3_alg».proof.Proof.Gen.KernelIdeal.Frame
import proofs.«415065_j13434657702539_3_alg».proof.Proof.Gen.ReferenceIdeal
import proofs.«415065_j13434657702539_3_alg».proof.Proof.Gen.Pre_finite_inputs
import proofs.«415065_j13434657702539_3_alg».proof.Proof.Gen.ReferenceIdeal.Run
import proofs.«415065_j13434657702539_3_alg».proof.Proof.Gen.ReferenceIdeal.Read
import proofs.«415065_j13434657702539_3_alg».proof.Proof.PreDecode
import proofs.«415065_j13434657702539_3_alg».proof.Proof.RefValue
import proofs.«415065_j13434657702539_3_alg».proof.Proof.KValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame, its table condition empty. -/
theorem frame_k : Cert.frame_Kernel := fun m ρ _ => Cert.Kernel.Gen.frame m ρ trivial

/-- The idealized kernel runs and keeps its arguments. -/
theorem frame_ki : Cert.frame_KernelIdeal := fun m ρ _ => Cert.KernelIdeal.Gen.frame m ρ trivial

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table of named constants gives "inv_10000" the value 1/10000, and the printed
    constant is that value over the extended reals. -/
theorem preserves : Cert.preserves_Kernel_KernelIdeal :=
  IdealRules.named_const.statement Cert.KernelIdeal.κ "inv_10000" .f32 0x38D1B717#32 ((1 / 10000 : ℝ) : EReal) rfl

/-- From memories that agree on the three arguments both programs end with the result array at the specification of
    those arguments: the kernel by its run read block by block, the reference by its run read operation by operation,
    each where every index word is below 10000, which the precondition says. -/
theorem algebraic : Cert.algebraic_KernelIdeal_ReferenceIdeal := by
  intro m ρ m' ρ' hpre hagree
  have hidx : ∀ (c : Dev Cert.KernelIdeal.nD) (j : Cert.KernelIdeal.S64x4.Idx),
      (m ((c : Thread Cert.KernelIdeal.nD Cert.KernelIdeal.τ).loc Cert.KernelIdeal.main_arg1) j).toNat < 10000 :=
    fun c j => Cert.Hand.PreDecode.idx_lt_of_pre _ _ _ (hpre c) j
  refine ⟨fun c => Cert.Hand.KValue.Gm m c, Cert.Hand.KValue.run m ρ hidx, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v12_eq _ _ _).trans (Cert.Hand.RefValue.ref_eq _ _ _ (hidx c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
